-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x1024 : Shape := ⟨3, ![2, 512, 1024]⟩
abbrev S1024 : Shape := ⟨1, ![1024]⟩
abbrev S64x1024 : Shape := ⟨2, ![64, 1024]⟩
abbrev S64 : Shape := ⟨1, ![64]⟩
abbrev S128x64 : Shape := ⟨2, ![128, 64]⟩
abbrev S128 : Shape := ⟨1, ![128]⟩
abbrev S_ : Shape := ⟨0, ![]⟩

class Facts : Prop where
  bcast_S_S2x512x1024 : S_.BroadcastsInDim S2x512x1024 (![] : Fin 0 → Fin S2x512x1024.rank)
  reducesTo_S2x512x1024_S_d0_1_2 : S2x512x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S64 .f32) (main_arg5 : FVec F S128x64 .f32) (main_arg6 : FVec F S128 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S2x512x1024 .f32) (main_arg1 : FVec F S1024 .f32) (main_arg2 : FVec F S1024 .f32) (main_arg3 : FVec F S64x1024 .f32) (main_arg4 : FVec F S64 .f32) (main_arg5 : FVec F S128x64 .f32) (main_arg6 : FVec F S128 .f32) : IVec S_ 1 :=
  let main_v0 : FVec F S2x512x1024 .f32 := Host.absf main_arg0
  let main_cst : FVec F S_ .f32 := constant S_ .f32 0x7F800000#32
  let main_v1 : FVec F S2x512x1024 .f32 := broadcastInDim S2x512x1024 ![] bcast_S_S2x512x1024 main_cst
  let main_v2 : IVec S2x512x1024 1 := cmpf .olt main_v0 main_v1
  let main_c : IVec S_ 1 := constantI S_ 1 1#1
  let main_v3 : IVec S_ 1 := (fun x v => Host.reduce IntOp.andi x v reducesTo_S2x512x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_arg5 main_arg6 main_v13 main_v16
-- ==== Kernel.lean ====
abbrev S2x512x1024 : Shape := ⟨3, ![2, 512, 1024]⟩
abbrev S1024 : Shape := ⟨1, ![1024]⟩
abbrev S64x1024 : Shape := ⟨2, ![64, 1024]⟩
abbrev S64 : Shape := ⟨1, ![64]⟩
abbrev S128x64 : Shape := ⟨2, ![128, 64]⟩
abbrev S128 : Shape := ⟨1, ![128]⟩
abbrev S2x512x64 : Shape := ⟨3, ![2, 512, 64]⟩
abbrev S1x512x1024 : Shape := ⟨3, ![1, 512, 1024]⟩
abbrev S1x512x64 : Shape := ⟨3, ![1, 512, 64]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S1024x64 : Shape := ⟨2, ![1024, 64]⟩
abbrev S512x64 : Shape := ⟨2, ![512, 64]⟩
abbrev S1x64 : Shape := ⟨2, ![1, 64]⟩
abbrev S2x512x512x128 : Shape := ⟨4, ![2, 512, 512, 128]⟩
abbrev S1x128x64 : Shape := ⟨3, ![1, 128, 64]⟩
abbrev S1x64x64 : Shape := ⟨3, ![1, 64, 64]⟩
abbrev S1x64x128x128 : Shape := ⟨4, ![1, 64, 128, 128]⟩
abbrev S1x128x32 : Shape := ⟨3, ![1, 128, 32]⟩
abbrev S128x32 : Shape := ⟨2, ![128, 32]⟩
abbrev S1x64x32 : Shape := ⟨3, ![1, 64, 32]⟩
abbrev S64x32 : Shape := ⟨2, ![64, 32]⟩
abbrev S64x1x32 : Shape := ⟨3, ![64, 1, 32]⟩
abbrev S64x128x32 : Shape := ⟨3, ![64, 128, 32]⟩
abbrev S8192x32 : Shape := ⟨2, ![8192, 32]⟩
abbrev S32x128 : Shape := ⟨2, ![32, 128]⟩
abbrev S8192x128 : Shape := ⟨2, ![8192, 128]⟩
abbrev S64x128x128 : Shape := ⟨3, ![64, 128, 128]⟩
abbrev S1x1x128 : Shape := ⟨3, ![1, 1, 128]⟩

abbrev nBuf : Space → Nat
  | .hbm => 9
  | .vmem => 16
  | .smem => 0
  | _ => 0

abbrev bufTy : (tb : Table) → Fin (tcTables nBuf tb) → BufTy
  | .hbm, ⟨0, _⟩ => ⟨S2x512x1024, .f32⟩
  | .hbm, ⟨1, _⟩ => ⟨S1024, .f32⟩
  | .hbm, ⟨2, _⟩ => ⟨S1024, .f32⟩
  | .hbm, ⟨3, _⟩ => ⟨S64x1024, .f32⟩
  | .hbm, ⟨4, _⟩ => ⟨S64, .f32⟩
  | .hbm, ⟨5, _⟩ => ⟨S128x64, .f32⟩
  | .hbm, ⟨6, _⟩ => ⟨S128, .f32⟩
  | .hbm, ⟨7, _⟩ => ⟨S2x512x64, .f32⟩
  | .hbm, ⟨8, _⟩ => ⟨S2x512x512x128, .f32⟩
  | .local _ .vmem, ⟨0, _⟩ => ⟨S1x512x1024, .f32⟩
  | .local _ .vmem, ⟨1, _⟩ => ⟨S1x512x1024, .f32⟩
  | .local _ .vmem, ⟨2, _⟩ => ⟨S1024, .f32⟩
  | .local _ .vmem, ⟨3, _⟩ => ⟨S1024, .f32⟩
  | .local _ .vmem, ⟨4, _⟩ => ⟨S64x1024, .f32⟩
  | .local _ .vmem, ⟨5, _⟩ => ⟨S64, .f32⟩
  | .local _ .vmem, ⟨6, _⟩ => ⟨S1x512x64, .f32⟩
  | .local _ .vmem, ⟨7, _⟩ => ⟨S1x512x64, .f32⟩
  | .local _ .vmem, ⟨8, _⟩ => ⟨S1x128x64, .f32⟩
  | .local _ .vmem, ⟨9, _⟩ => ⟨S1x128x64, .f32⟩
  | .local _ .vmem, ⟨10, _⟩ => ⟨S1x64x64, .f32⟩
  | .local _ .vmem, ⟨11, _⟩ => ⟨S1x64x64, .f32⟩
  | .local _ .vmem, ⟨12, _⟩ => ⟨S128x64, .f32⟩
  | .local _ .vmem, ⟨13, _⟩ => ⟨S128, .f32⟩
  | .local _ .vmem, ⟨14, _⟩ => ⟨S1x64x128x128, .f32⟩
  | .local _ .vmem, ⟨15, _⟩ => ⟨S1x64x128x128, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![2, 8, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1x64x128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  broadcasts_S512x1_S512x1024 : S512x1.Broadcasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  transposes_S64x1024_p1_0_S1024x64 : S64x1024.Transposes [1, 0] S1024x64
  inb_S64_S64_0 : ∀ a, (![0] : Fin 1 → Nat) a + S64.size a ≤ S64.size a
  h_S64 : 0 < S64.numel
  shapeCasts_S64_S1x64 : S64.ShapeCasts S1x64
  broadcasts_S1x64_S512x64 : S1x64.Broadcasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  inb_S1x128x64_S1x128x32_0_0_0 : ∀ a, (![0, 0, 0] : Fin 3 → Nat) a + S1x128x32.size a ≤ S1x128x64.size a
  h_S1x128x32 : 0 < S1x128x32.numel
  shapeCasts_S1x128x32_S128x32 : S1x128x32.ShapeCasts S128x32
  inb_S1x64x64_S1x64x32_0_0_32 : ∀ a, (![0, 0, 32] : Fin 3 → Nat) a + S1x64x32.size a ≤ S1x64x64.size a
  h_S1x64x32 : 0 < S1x64x32.numel
  shapeCasts_S1x64x32_S64x32 : S1x64x32.ShapeCasts S64x32
  shapeCasts_S128x32_S1x128x32 : S128x32.ShapeCasts S1x128x32
  shapeCasts_S64x32_S64x1x32 : S64x32.ShapeCasts S64x1x32
  broadcasts_S64x1x32_S64x128x32 : S64x1x32.Broadcasts S64x128x32
  broadcasts_S1x128x32_S64x128x32 : S1x128x32.Broadcasts S64x128x32
  inb_S128x64_S128x64_0_0 : ∀ a, (![0, 0] : Fin 2 → Nat) a + S128x64.size a ≤ S128x64.size a
  h_S128x64 : 0 < S128x64.numel
  slices_S128x64_o0_0_S128x32 : S128x64.Slices ![0, 0] S128x32
  slices_S128x64_o0_32_S128x32 : S128x64.Slices ![0, 32] S128x32
  shapeCasts_S64x128x32_S8192x32 : S64x128x32.ShapeCasts S8192x32
  transposes_S128x32_p1_0_S32x128 : S128x32.Transposes [1, 0] S32x128
  shapeCasts_S8192x128_S64x128x128 : S8192x128.ShapeCasts S64x128x128
  inb_S128_S128_0 : ∀ a, (![0] : Fin 1 → Nat) a + S128.size a ≤ S128.size a
  h_S128 : 0 < S128.numel
  shapeCasts_S128_S1x1x128 : S128.ShapeCasts S1x1x128
  broadcasts_S1x1x128_S64x128x128 : S1x1x128.Broadcasts S64x128x128
  inb_S1x64x128x128_S1x64x128x128_0_0_0_0 : ∀ a, (![0, 0, 0, 0] : Fin 4 → Nat) a + S1x64x128x128.size a ≤ S1x64x128x128.size a
  h_S1x64x128x128 : 0 < S1x64x128x128.numel
  shapeCasts_S1x64x128x128_S64x128x128 : S1x64x128x128.ShapeCasts S64x128x128
  shapeCasts_S64x128x128_S1x64x128x128 : S64x128x128.ShapeCasts S1x64x128x128
  dot_S512x1024_S1024x64_S512x64_1_0_0_1_n_n_wf : DotDims.WF S512x1024 S1024x64 S512x64 [1] [0] [0] [1] [] []
  dot_S8192x32_S32x128_S8192x128_1_0_0_1_n_n_wf : DotDims.WF S8192x32 S32x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S2x512x1024.size a
  hwx0_0 : ∀ i : grid0.Coords, EltTy.bits .f32 = 32 ∨ (Rect.block (s := S2x512x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x1024.size a
  hwx0_3 : ∀ i : grid0.Coords, EltTy.bits .f32 = 32 ∨ (Rect.block (s := S64x1024) S64x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x64.size a ≤ S2x512x64.size a
  hwx0_5 : ∀ i : grid0.Coords, EltTy.bits .f32 = 32 ∨ (Rect.block (s := S2x512x64) S1x512x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x64.size a ≤ S2x512x64.size a
  hwx1_0 : ∀ i : grid1.Coords, EltTy.bits .f32 = 32 ∨ (Rect.block (s := S2x512x64) S1x128x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x64.size a ≤ S2x512x64.size a
  hwx1_1 : ∀ i : grid1.Coords, EltTy.bits .f32 = 32 ∨ (Rect.block (s := S2x512x64) S1x64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x64x128x128.size a ≤ S2x512x512x128.size a
  hwx1_4 : ∀ i : grid1.Coords, EltTy.bits .f32 = 32 ∨ (Rect.block (s := S2x512x512x128) S1x64x128x128.size (cc1_transform_4 i) (hinb1_4 i)).WholeWords (EltTy.packing .f32)

variable [Facts₀]

def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S8192x32_S32x128_S8192x128_1_0_0_1_n_n : DotDims S8192x32 S32x128 S8192x128 where
  lhsContracting := [1]
  rhsContracting := [0]
  lhsNonContracting := [0]
  rhsNonContracting := [1]
  lhsBatch := []
  rhsBatch := []
  wf := dot_S8192x32_S32x128_S8192x128_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x512x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0) S1x128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x64x128x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2x512x1024 : Shape := ⟨3, ![2, 512, 1024]⟩
abbrev S1024 : Shape := ⟨1, ![1024]⟩
abbrev S64x1024 : Shape := ⟨2, ![64, 1024]⟩
abbrev S64 : Shape := ⟨1, ![64]⟩
abbrev S128x64 : Shape := ⟨2, ![128, 64]⟩
abbrev S128 : Shape := ⟨1, ![128]⟩
abbrev S_ : Shape := ⟨0, ![]⟩
abbrev S2x512 : Shape := ⟨2, ![2, 512]⟩
abbrev S2x512x1 : Shape := ⟨3, ![2, 512, 1]⟩
abbrev S1x1x1024 : Shape := ⟨3, ![1, 1, 1024]⟩
abbrev S2x512x64 : Shape := ⟨3, ![2, 512, 64]⟩
abbrev S1x1x64 : Shape := ⟨3, ![1, 1, 64]⟩
abbrev S2x512x32 : Shape := ⟨3, ![2, 512, 32]⟩
abbrev S2x1x512x32 : Shape := ⟨4, ![2, 1, 512, 32]⟩
abbrev S2x512x1x32 : Shape := ⟨4, ![2, 512, 1, 32]⟩
abbrev S2x512x512x32 : Shape := ⟨4, ![2, 512, 512, 32]⟩
abbrev S2x512x512x64 : Shape := ⟨4, ![2, 512, 512, 64]⟩
abbrev S2x512x512x128 : Shape := ⟨4, ![2, 512, 512, 128]⟩
abbrev S1x1x1x128 : Shape := ⟨4, ![1, 1, 1, 128]⟩

abbrev nBuf : Space → Nat
  | .hbm => 57
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S1024, .f32⟩
  | .hbm, ⟨2, _⟩ => ⟨S1024, .f32⟩
  | .hbm, ⟨3, _⟩ => ⟨S64x1024, .f32⟩
  | .hbm, ⟨4, _⟩ => ⟨S64, .f32⟩
  | .hbm, ⟨5, _⟩ => ⟨S128x64, .f32⟩
  | .hbm, ⟨6, _⟩ => ⟨S128, .f32⟩
  | .hbm, ⟨7, _⟩ => ⟨S_, .f32⟩
  | .hbm, ⟨8, _⟩ => ⟨S2x512, .f32⟩
  | .hbm, ⟨9, _⟩ => ⟨S2x512x1, .f32⟩
  | .hbm, ⟨10, _⟩ => ⟨S_, .f32⟩
  | .hbm, ⟨11, _⟩ => ⟨S2x512x1, .f32⟩
  | .hbm, ⟨12, _⟩ => ⟨S2x512x1, .f32⟩
  | .hbm, ⟨13, _⟩ => ⟨S2x512x1024, .f32⟩
  | .hbm, ⟨14, _⟩ => ⟨S2x512x1024, .f32⟩
  | .hbm, ⟨15, _⟩ => ⟨S2x512x1024, .f32⟩
  | .hbm, ⟨16, _⟩ => ⟨S_, .f32⟩
  | .hbm, ⟨17, _⟩ => ⟨S2x512, .f32⟩
  | .hbm, ⟨18, _⟩ => ⟨S2x512x1, .f32⟩
  | .hbm, ⟨19, _⟩ => ⟨S_, .f32⟩
  | .hbm, ⟨20, _⟩ => ⟨S2x512x1, .f32⟩
  | .hbm, ⟨21, _⟩ => ⟨S2x512x1, .f32⟩
  | .hbm, ⟨22, _⟩ => ⟨S2x512x1024, .f32⟩
  | .hbm, ⟨23, _⟩ => ⟨S2x512x1024, .f32⟩
  | .hbm, ⟨24, _⟩ => ⟨S_, .f32⟩
  | .hbm, ⟨25, _⟩ => ⟨S2x512x1, .f32⟩
  | .hbm, ⟨26, _⟩ => ⟨S2x512x1, .f32⟩
  | .hbm, ⟨27, _⟩ => ⟨S2x512x1, .f32⟩
  | .hbm, ⟨28, _⟩ => ⟨S2x512x1024, .f32⟩
  | .hbm, ⟨29, _⟩ => ⟨S2x512x1024, .f32⟩
  | .hbm, ⟨30, _⟩ => ⟨S1x1x1024, .f32⟩
  | .hbm, ⟨31, _⟩ => ⟨S2x512x1024, .f32⟩
  | .hbm, ⟨32, _⟩ => ⟨S2x512x1024, .f32⟩
  | .hbm, ⟨33, _⟩ => ⟨S1x1x1024, .f32⟩
  | .hbm, ⟨34, _⟩ => ⟨S2x512x1024, .f32⟩
  | .hbm, ⟨35, _⟩ => ⟨S2x512x1024, .f32⟩
  | .hbm, ⟨36, _⟩ => ⟨S2x512x64, .f32⟩
  | .hbm, ⟨37, _⟩ => ⟨S1x1x64, .f32⟩
  | .hbm, ⟨38, _⟩ => ⟨S2x512x64, .f32⟩
  | .hbm, ⟨39, _⟩ => ⟨S2x512x64, .f32⟩
  | .hbm, ⟨40, _⟩ => ⟨S2x512x32, .f32⟩
  | .hbm, ⟨41, _⟩ => ⟨S2x512x32, .f32⟩
  | .hbm, ⟨42, _⟩ => ⟨S2x1x512x32, .f32⟩
  | .hbm, ⟨43, _⟩ => ⟨S2x512x1x32, .f32⟩
  | .hbm, ⟨44, _⟩ => ⟨S2x512x512x32, .f32⟩
  | .hbm, ⟨45, _⟩ => ⟨S2x512x512x32, .f32⟩
  | .hbm, ⟨46, _⟩ => ⟨S2x512x512x32, .f32⟩
  | .hbm, ⟨47, _⟩ => ⟨S2x1x512x32, .f32⟩
  | .hbm, ⟨48, _⟩ => ⟨S2x512x1x32, .f32⟩
  | .hbm, ⟨49, _⟩ => ⟨S2x512x512x32, .f32⟩
  | .hbm, ⟨50, _⟩ => ⟨S2x512x512x32, .f32⟩
  | .hbm, ⟨51, _⟩ => ⟨S2x512x512x32, .f32⟩
  | .hbm, ⟨52, _⟩ => ⟨S2x512x512x64, .f32⟩
  | .hbm, ⟨53, _⟩ => ⟨S2x512x512x128, .f32⟩
  | .hbm, ⟨54, _⟩ => ⟨S1x1x1x128, .f32⟩
  | .hbm, ⟨55, _⟩ => ⟨S2x512x512x128, .f32⟩
  | .hbm, ⟨56, _⟩ => ⟨S2x512x512x128, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]

class Facts₀ : Prop where
  reducesTo_S2x512x1024_S2x512_d2 : S2x512x1024.ReducesTo [2] S2x512
  h_S_ : 0 < S_.numel
  bcast_S2x512_S2x512x1_0_1 : S2x512.BroadcastsInDim S2x512x1 (![0, 1] : Fin 2 → Fin S2x512x1.rank)
  bcast_S_S2x512x1 : S_.BroadcastsInDim S2x512x1 (![] : Fin 0 → Fin S2x512x1.rank)
  bcast_S2x512x1_S2x512x1024_0_1_2 : S2x512x1.BroadcastsInDim S2x512x1024 (![0, 1, 2] : Fin 3 → Fin S2x512x1024.rank)
  bcast_S1024_S1x1x1024_2 : S1024.BroadcastsInDim S1x1x1024 (![2] : Fin 1 → Fin S1x1x1024.rank)
  bcast_S1x1x1024_S2x512x1024_0_1_2 : S1x1x1024.BroadcastsInDim S2x512x1024 (![0, 1, 2] : Fin 3 → Fin S2x512x1024.rank)
  bcast_S64_S1x1x64_2 : S64.BroadcastsInDim S1x1x64 (![2] : Fin 1 → Fin S1x1x64.rank)
  bcast_S1x1x64_S2x512x64_0_1_2 : S1x1x64.BroadcastsInDim S2x512x64 (![0, 1, 2] : Fin 3 → Fin S2x512x64.rank)
  slices_S2x512x64_S2x512x32_0_0_0 : S2x512x64.Slices ![0, 0, 0] S2x512x32
  slices_S2x512x64_S2x512x32_0_0_32 : S2x512x64.Slices ![0, 0, 32] S2x512x32
  bcast_S2x512x32_S2x1x512x32_0_2_3 : S2x512x32.BroadcastsInDim S2x1x512x32 (![0, 2, 3] : Fin 3 → Fin S2x1x512x32.rank)
  bcast_S2x512x32_S2x512x1x32_0_1_3 : S2x512x32.BroadcastsInDim S2x512x1x32 (![0, 1, 3] : Fin 3 → Fin S2x512x1x32.rank)
  bcast_S2x1x512x32_S2x512x512x32_0_1_2_3 : S2x1x512x32.BroadcastsInDim S2x512x512x32 (![0, 1, 2, 3] : Fin 4 → Fin S2x512x512x32.rank)
  bcast_S2x512x1x32_S2x512x512x32_0_1_2_3 : S2x512x1x32.BroadcastsInDim S2x512x512x32 (![0, 1, 2, 3] : Fin 4 → Fin S2x512x512x32.rank)
  concatenates_S2x512x512x32_S2x512x512x32_S2x512x512x64_d3 : Shape.Concatenates [S2x512x512x32, S2x512x512x32] S2x512x512x64 3
  bcast_S128_S1x1x1x128_3 : S128.BroadcastsInDim S1x1x1x128 (![3] : Fin 1 → Fin S1x1x1x128.rank)
  bcast_S1x1x1x128_S2x512x512x128_0_1_2_3 : S1x1x1x128.BroadcastsInDim S2x512x512x128 (![0, 1, 2, 3] : Fin 4 → Fin S2x512x512x128.rank)
  dot_S2x512x1024_S64x1024_S2x512x64_2_1_01_0_n_n_wf : DotDims.WF S2x512x1024 S64x1024 S2x512x64 [2] [1] [0, 1] [0] [] []
  dot_S2x512x512x64_S128x64_S2x512x512x128_3_1_012_0_n_n_wf : DotDims.WF S2x512x512x64 S128x64 S2x512x512x128 [3] [1] [0, 1, 2] [0] [] []

variable [Facts₀]

def dot_S2x512x1024_S64x1024_S2x512x64_2_1_01_0_n_n : DotDims S2x512x1024 S64x1024 S2x512x64 where
  lhsContracting := [2]
  rhsContracting := [1]
  lhsNonContracting := [0, 1]
  rhsNonContracting := [0]
  lhsBatch := []
  rhsBatch := []
  wf := dot_S2x512x1024_S64x1024_S2x512x64_2_1_01_0_n_n_wf
def dot_S2x512x512x64_S128x64_S2x512x512x128_3_1_012_0_n_n : DotDims S2x512x512x64 S128x64 S2x512x512x128 where
  lhsContracting := [3]
  rhsContracting := [1]
  lhsNonContracting := [0, 1, 2]
  rhsNonContracting := [0]
  lhsBatch := []
  rhsBatch := []
  wf := dot_S2x512x512x64_S128x64_S2x512x512x128_3_1_012_0_n_n_wf

class Facts : Prop extends Facts₀ where

variable [Facts]
-- ==== Proof.K.Body0.lean ====
/-
  Region 0 of @main (the LayerNorm + projection kernel) on one core, at the buffer contents `V` the region is
  entered with: what each of its six windows holds at a grid point, what the body leaves in the output window's
  staging buffer (its one whole-block store over the loaded input blocks), the body's triple, the pipeline's proof
  data and the body obligation at every point. Generic in the float instance.
-/
import proofs.«170736_j32031866094096_1_alg».proof.Proof.Gen.Kernel.Launch
import proofs.«170736_j32031866094096_1_alg».proof.Proof.Gen.Kernel.Skeleton
import proofs.«170736_j32031866094096_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body loads and stores through. -/
abbrev r0_x : Rect S1x512x1024 := Rect.unit (s := S1x512x1024) ![0, 0, 0] S1x512x1024.size inb_S1x512x1024_S1x512x1024_0_0_0
abbrev r0_g : Rect S1024 := Rect.unit (s := S1024) ![0] S1024.size inb_S1024_S1024_0
abbrev r0_w : Rect S64x1024 := Rect.unit (s := S64x1024) ![0, 0] S64x1024.size inb_S64x1024_S64x1024_0_0
abbrev r0_b : Rect S64 := Rect.unit (s := S64) ![0] S64.size inb_S64_S64_0
abbrev r0_o : Rect S1x512x64 := Rect.unit (s := S1x512x64) ![0, 0, 0] S1x512x64.size inb_S1x512x64_S1x512x64_0_0_0

/-- The output window's staging buffer after the body, from the five input blocks: its one store. -/
def out0_5 (x0 : Vec F S1x512x1024 .f32) (x1 x2 : Vec F S1024 .f32) (x3 : Vec F S64x1024 .f32) (x4 : Vec F S64 .f32) : Vec F S1x512x64 .f32 :=
  View.canon [⟨r0_o, k0_pay1 (View.ld x0 r0_x) (View.ld x1 r0_g) (View.ld x2 r0_g) (View.ld x3 r0_w) (View.ld x4 r0_b)⟩]

/-- The store covers the buffer. -/
theorem cover0_5 (p0 : Vec F S1x512x64 .f32) (y : S1x512x64.Idx) :
    ∃ pc ∈ ([⟨r0_o, p0⟩] : List (View.Piece (Elt F) S1x512x64 .f32)), y ∈ pc.1.set :=
  View.cover_of_tiled [⟨r0_o, p0⟩] S1x512x64.size (by rfl) y

set_option maxHeartbeats 1000000 in
/-- The body on whole staging memrefs: inputs at contents `xW`, the output at anything; it returns the inputs as
    they were and the output at `out0_5` of the inputs. -/
theorem sound_kernel0 (c : Dev nD) (E : Set ℕ) (i : grid0.Coords)
    (arg1 : Memref sig .tc .vmem S1x512x1024 .f32) (harg1 : arg1.IsWhole) (arg2 : Memref sig .tc .vmem S1024 .f32) (harg2 : arg2.IsWhole)
    (arg3 : Memref sig .tc .vmem S1024 .f32) (harg3 : arg3.IsWhole) (arg4 : Memref sig .tc .vmem S64x1024 .f32) (harg4 : arg4.IsWhole)
    (arg5 : Memref sig .tc .vmem S64 .f32) (harg5 : arg5.IsWhole) (arg6 : Memref sig .tc .vmem S1x512x64 .f32) (harg6 : arg6.IsWhole)
    (x0 : Vec F S1x512x1024 .f32) (x1 x2 : Vec F S1024 .f32) (x3 : Vec F S64x1024 .f32) (x4 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__ln_proj_kernel i arg1 harg1 arg2 harg2 arg3 harg3 arg4 harg4 arg5 harg5 arg6 harg6) K := by
  simp only [cc0__ln_proj_kernel_eq_skeleton]; unfold cc0__ln_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-- Input window 0's current staging buffer holds its block at every point, fetched there or not, for any proof
    data whose array is `V`'s and whose body leaves the block in place: unfetched, the block index has not moved,
    and the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

/-- Input window 1's current staging buffer holds its block at every point, fetched there or not, for any proof
    data whose array is `V`'s and whose body leaves the block in place: unfetched, the block index has not moved,
    and the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_1 (c : Dev nD) (t : Fin cfg0.N) (d) : (dat0 V c).before 1 t d = iblk0 V c 1 t :=
  before0_1_of V (dat0 V c) (A_eq0 V c 1) (after0_1 V c) t d

/-- Input window 2's current staging buffer holds its block at every point, fetched there or not, for any proof
    data whose array is `V`'s and whose body leaves the block in place: unfetched, the block index has not moved,
    and the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_2 (c : Dev nD) (t : Fin cfg0.N) (d) : (dat0 V c).before 2 t d = iblk0 V c 2 t :=
  before0_2_of V (dat0 V c) (A_eq0 V c 2) (after0_2 V c) t d

/-- Input window 3's current staging buffer holds its block at every point, fetched there or not, for any proof
    data whose array is `V`'s and whose body leaves the block in place: unfetched, the block index has not moved,
    and the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_3 (c : Dev nD) (t : Fin cfg0.N) (d) : (dat0 V c).before 3 t d = iblk0 V c 3 t :=
  before0_3_of V (dat0 V c) (A_eq0 V c 3) (after0_3 V c) t d

/-- Input window 4's current staging buffer holds its block at every point, fetched there or not, for any proof
    data whose array is `V`'s and whose body leaves the block in place: unfetched, the block index has not moved,
    and the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: each input's memref holds its block, so the body's triple applies; the invariant and the
    core's debt pass through unread, and the output's prior contents are whatever they are. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := by
  intro t
  rw [bigSep_W0, bigSep_W0]
  exact sound_body0 V c t

end Cert.Kernel.Hand

end
-- ==== Proof.K.Body1.lean ====
/-
  Region 1 of @main (the pairwise product / difference kernel) on one core, at the buffer contents `V` the region
  is entered with. Its first two windows read ONE array (the projected sequence, once by rows of the second pair
  axis and once by rows of the first), so each holds half of that array's share; the other two inputs and the
  output are whole. What each window holds at a grid point, what the body leaves in the output window's staging
  buffer, the body's triple, the proof data and the body obligation. Generic in the float instance.
-/
import proofs.«170736_j32031866094096_1_alg».proof.Proof.Gen.Kernel.Launch
import proofs.«170736_j32031866094096_1_alg».proof.Proof.Gen.Kernel.Skeleton
import proofs.«170736_j32031866094096_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangles the body loads and stores through: the first 32 columns of the 128-row block, the last 32
    columns of the 64-row block, the two whole parameter blocks, the whole output block. -/
abbrev r1_q : Rect S1x128x64 := Rect.unit (s := S1x128x64) ![0, 0, 0] S1x128x32.size inb_S1x128x64_S1x128x32_0_0_0
abbrev r1_k : Rect S1x64x64 := Rect.unit (s := S1x64x64) ![0, 0, 32] S1x64x32.size inb_S1x64x64_S1x64x32_0_0_32
abbrev r1_w : Rect S128x64 := Rect.unit (s := S128x64) ![0, 0] S128x64.size inb_S128x64_S128x64_0_0
abbrev r1_b : Rect S128 := Rect.unit (s := S128) ![0] S128.size inb_S128_S128_0
abbrev r1_o : Rect S1x64x128x128 := Rect.unit (s := S1x64x128x128) ![0, 0, 0, 0] S1x64x128x128.size inb_S1x64x128x128_S1x64x128x128_0_0_0_0

/-- The output window's staging buffer after the body, from the four input blocks: its one store. -/
def out1_4 (x0 : Vec F S1x128x64 .f32) (x1 : Vec F S1x64x64 .f32) (x2 : Vec F S128x64 .f32) (x3 : Vec F S128 .f32) : Vec F S1x64x128x128 .f32 :=
  View.canon [⟨r1_o, k1_pay1 (View.ld x0 r1_q) (View.ld x1 r1_k) (View.ld x2 r1_w) (View.ld x3 r1_b)⟩]

/-- The store covers the buffer. -/
theorem cover1_4 (p0 : Vec F S1x64x128x128 .f32) (y : S1x64x128x128.Idx) :
    ∃ pc ∈ ([⟨r1_o, p0⟩] : List (View.Piece (Elt F) S1x64x128x128 .f32)), y ∈ pc.1.set :=
  View.cover_of_tiled [⟨r1_o, p0⟩] S1x64x128x128.size (by rfl) y

set_option maxHeartbeats 1000000 in
/-- The body on whole staging memrefs: inputs at contents `xW`, the output at anything; it returns the inputs as
    they were and the output at `out1_4` of the inputs. -/
theorem sound_kernel1 (c : Dev nD) (E : Set ℕ) (i : grid1.Coords)
    (arg3 : Memref sig .tc .vmem S1x128x64 .f32) (harg3 : arg3.IsWhole) (arg4 : Memref sig .tc .vmem S1x64x64 .f32) (harg4 : arg4.IsWhole)
    (arg5 : Memref sig .tc .vmem S128x64 .f32) (harg5 : arg5.IsWhole) (arg6 : Memref sig .tc .vmem S128 .f32) (harg6 : arg6.IsWhole)
    (arg7 : Memref sig .tc .vmem S1x64x128x128 .f32) (harg7 : arg7.IsWhole)
    (x0 : Vec F S1x128x64 .f32) (x1 : Vec F S1x64x64 .f32) (x2 : Vec F S128x64 .f32) (x3 : Vec F S128 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3
            ∗ owns (c : Thread nD τ) arg7 fullShare (out1_4 x0 x1 x2 x3)) -∗ K ⟨⟩))
      ⊢ wp frame (wpE (defs₀ (F := F)) Variants.none c none) E (cc1__pair_kernel i arg3 harg3 arg4 harg4 arg5 harg5 arg6 harg6 arg7 harg7) K := by
  simp only [cc1__pair_kernel_eq_skeleton]; unfold cc1__pair_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of pipeline 1 on core `c`. The two windows on the shared array hold the two halves of its share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem q1_0 (c : Dev nD) : (dat1 V c).q 0 = fullShare.left := by dsimp only [dat1]
theorem q1_1 (c : Dev nD) : (dat1 V c).q 1 = fullShare.right := by dsimp only [dat1]
theorem q1_2 (c : Dev nD) : (dat1 V c).q 2 = fullShare := by dsimp only [dat1]
theorem q1_3 (c : Dev nD) : (dat1 V c).q 3 = fullShare := by dsimp only [dat1]
theorem q1_4 (c : Dev nD) : (dat1 V c).q 4 = fullShare := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Input window 0's current staging buffer holds its block at every point, fetched there or not: unfetched, the
    block index has not moved since the last fetch, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

/-- Input window 1's current staging buffer holds its block at every point, fetched there or not: unfetched, the
    block index has not moved since the last fetch, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_1 (c : Dev nD) (t : Fin cfg1.N) (d) : (dat1 V c).before 1 t d = iblk1 V c 1 t :=
  before1_1_of V (dat1 V c) (A_eq1 V c 1) (after1_1 V c) t d

/-- Input window 2's current staging buffer holds its block at every point, fetched there or not: unfetched, the
    block index has not moved since the last fetch, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_2 (c : Dev nD) (t : Fin cfg1.N) (d) : (dat1 V c).before 2 t d = iblk1 V c 2 t :=
  before1_2_of V (dat1 V c) (A_eq1 V c 2) (after1_2 V c) t d

/-- Input window 3's current staging buffer holds its block at every point, fetched there or not: unfetched, the
    block index has not moved since the last fetch, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_3 (c : Dev nD) (t : Fin cfg1.N) (d) : (dat1 V c).before 3 t d = iblk1 V c 3 t :=
  before1_3_of V (dat1 V c) (A_eq1 V c 3) (after1_3 V c) t d

/-- What the body is called with at point `t`: the invariant, the core's debt, and each window's current staging
    buffer, whole, at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: each input's buffer holds its block, so the body's triple applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The run of @main: two kernel regions, one after the other, on each core. The buffer contents at the three
  boundaries (launch; after region 0, which rewrites only the projected sequence; after region 1, which rewrites
  only the result), each region as a segment over the thread state "every unscoped buffer at the boundary's
  contents, the generator register at some state, nothing owed", and the launch: every weakly fair execution
  terminates with every unscoped buffer at the last boundary's contents. From it the frame (no argument array is
  rewritten) and the result array as region 1's folded write-backs. Generic in the float instance.
-/
import proofs.«170736_j32031866094096_1_alg».proof.Proof.Gen.Kernel.Launch
import proofs.«170736_j32031866094096_1_alg».proof.Proof.Gen.Kernel.Skeleton
import proofs.«170736_j32031866094096_1_alg».proof.Proof.Gen.Kernel.Points
import proofs.«170736_j32031866094096_1_alg».proof.Proof.K.Body0
import proofs.«170736_j32031866094096_1_alg».proof.Proof.K.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After region 0: the projected sequence at the fold of region 0's write-backs, every other buffer as launched. -/
def W1 (c : Dev nD) : Valuation τ sig (Elt F) :=
  Function.update (W0 m ρ c) (Proc.devRef .tc main_v0) ((dat0 (V0 m ρ) c).arrAt 5 cfg0.N)
abbrev V1 : (c : Dev nD) → (b : Ref sig .tc) → Buf (Elt F) ((c : Thread nD τ).loc b) := fun c b => W1 m ρ c b
/-- After region 1: the result at the fold of region 1's write-backs, every other buffer as region 1 found it. -/
def W2 (c : Dev nD) : Valuation τ sig (Elt F) :=
  Function.update (W1 m ρ c) (Proc.devRef .tc main_v1) ((dat1 (V1 m ρ) c).arrAt 4 cfg1.N)
abbrev V2 : (c : Dev nD) → (b : Ref sig .tc) → Buf (Elt F) ((c : Thread nD τ).loc b) := fun c b => W2 m ρ c b

theorem W1_main_v0 (c : Dev nD) : W1 m ρ c (Proc.devRef .tc main_v0) = (dat0 (V0 m ρ) c).arrAt 5 cfg0.N := by
  unfold W1; exact Function.update_self ..
theorem W1_of_ne (c : Dev nD) (b : Ref sig .tc) (hb : b ≠ main_v0) : W1 m ρ c (Proc.devRef .tc b) = W0 m ρ c (Proc.devRef .tc b) := by
  unfold W1; exact Function.update_of_ne (StableHlo.devRef_ne_of_ne hb) ..
theorem W2_main_v1 (c : Dev nD) : W2 m ρ c (Proc.devRef .tc main_v1) = (dat1 (V1 m ρ) c).arrAt 4 cfg1.N := by
  unfold W2; exact Function.update_self ..
theorem W2_of_ne (c : Dev nD) (b : Ref sig .tc) (hb : b ≠ main_v1) : W2 m ρ c (Proc.devRef .tc b) = W1 m ρ c (Proc.devRef .tc b) := by
  unfold W2; exact Function.update_of_ne (StableHlo.devRef_ne_of_ne hb) ..

/-- An argument array is rewritten by neither region. -/
theorem W2_arg (c : Dev nD) (b : Ref sig .tc) (h1 : b ≠ main_v1) (h0 : b ≠ main_v0) :
    W2 m ρ c (Proc.devRef .tc b) = m ((c : Thread nD τ).loc b) :=
  (W2_of_ne m ρ c b h1).trans ((W1_of_ne m ρ c b h0).trans rfl)

/-- Region 1 finds the projected sequence as region 0 left it. -/
theorem V1_main_v0 (c : Dev nD) : V1 m ρ c main_v0 = (dat0 (V0 m ρ) c).arrAt 5 cfg0.N := W1_main_v0 m ρ c
theorem V1_arg (c : Dev nD) (b : Ref sig .tc) (h0 : b ≠ main_v0) : V1 m ρ c b = m ((c : Thread nD τ).loc b) := W1_of_ne m ρ c b h0

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through both regions: the generator register at some state, nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The regions as segments -/

/-- At region 0's exit each of its arrays holds what the pipeline leaves: an input as it was entered (never
    written), the projected sequence at the fold of the write-backs. -/
theorem hF0 (c : Dev nD) : ∀ w : Fin cfg0.W, (dat0 (V0 m ρ) c).arrAt w cfg0.N = V1 m ρ c (Pipeline.arrRef spec0 w)
  | ⟨0, _⟩ => (((dat0 (V0 m ρ) c).arrAt_in 0 rfl _).trans (A_eq0 (V0 m ρ) c 0)).trans (W1_of_ne m ρ c (Pipeline.arrRef spec0 0) (by decide)).symm
  | ⟨1, _⟩ => (((dat0 (V0 m ρ) c).arrAt_in 1 rfl _).trans (A_eq0 (V0 m ρ) c 1)).trans (W1_of_ne m ρ c (Pipeline.arrRef spec0 1) (by decide)).symm
  | ⟨2, _⟩ => (((dat0 (V0 m ρ) c).arrAt_in 2 rfl _).trans (A_eq0 (V0 m ρ) c 2)).trans (W1_of_ne m ρ c (Pipeline.arrRef spec0 2) (by decide)).symm
  | ⟨3, _⟩ => (((dat0 (V0 m ρ) c).arrAt_in 3 rfl _).trans (A_eq0 (V0 m ρ) c 3)).trans (W1_of_ne m ρ c (Pipeline.arrRef spec0 3) (by decide)).symm
  | ⟨4, _⟩ => (((dat0 (V0 m ρ) c).arrAt_in 4 rfl _).trans (A_eq0 (V0 m ρ) c 4)).trans (W1_of_ne m ρ c (Pipeline.arrRef spec0 4) (by decide)).symm
  | ⟨5, _⟩ => (W1_main_v0 m ρ c).symm
/-- Off region 0's arrays nothing changes: the one rewritten buffer is a window's array. -/
theorem hrest0 (c : Dev nD) : ∀ b, b ∉ Finset.univ.image (Pipeline.arrRef spec0) → V1 m ρ c b = V0 m ρ c b :=
  fun b hb => W1_of_ne m ρ c b fun e => hb (Finset.mem_image.mpr ⟨(5 : Fin cfg0.W), Finset.mem_univ _, e.symm⟩)

set_option backward.isDefEq.respectTransparency.types false in
/-- Region 0 over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 1: one array behind two windows

Region 1's first two windows read the projected sequence, each at half of its share; the buffers behind its
arrays are four, not five. At entry the sequence's buffer, whole at the full share, is split into the two halves;
at exit the halves, still at one contents (no window writes it), are joined. -/

/-- The distinct buffers behind region 1's windows, listed. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v0) ↦{fullShare} V' main_v0) ∗ (((c : Thread nD τ).loc main_arg5) ↦{fullShare} V' main_arg5)
          ∗ (((c : Thread nD τ).loc main_arg6) ↦{fullShare} V' main_arg6) ∗ (((c : Thread nD τ).loc main_v1) ↦{fullShare} V' main_v1)) := by
  unfold Pipeline.arrBufs
  exact bigSep_eq_bigSepL_of_eq [main_v0, main_arg5, main_arg6, main_v1] (by decide) (by decide) _

/-- The share each window of region 1 holds its array at. -/
theorem share1_0 (V : (c : Dev nD) → (b : Ref sig .tc) → Buf (Elt F) ((c : Thread nD τ).loc b)) (c : Dev nD) : (dat1 V c).share 0 = fullShare.left := rfl
theorem share1_1 (V : (c : Dev nD) → (b : Ref sig .tc) → Buf (Elt F) ((c : Thread nD τ).loc b)) (c : Dev nD) : (dat1 V c).share 1 = fullShare.right := rfl
theorem share1_2 (V : (c : Dev nD) → (b : Ref sig .tc) → Buf (Elt F) ((c : Thread nD τ).loc b)) (c : Dev nD) : (dat1 V c).share 2 = fullShare := rfl
theorem share1_3 (V : (c : Dev nD) → (b : Ref sig .tc) → Buf (Elt F) ((c : Thread nD τ).loc b)) (c : Dev nD) : (dat1 V c).share 3 = fullShare := rfl
theorem share1_4 (V : (c : Dev nD) → (b : Ref sig .tc) → Buf (Elt F) ((c : Thread nD τ).loc b)) (c : Dev nD) : (dat1 V c).share 4 = fullShare := rfl

/-- Region 1's windowed arrays at the contents a valuation gives them, window by window: the projected sequence
    twice, at the two halves of the full share, the other three whole at the full share. (Every array is a whole
    buffer, so a window's element set is all of it.) -/
theorem arrays1_eq (V : (c : Dev nD) → (b : Ref sig .tc) → Buf (Elt F) ((c : Thread nD τ).loc b)) (c : Dev nD)
    (V' : (b : Ref sig .tc) → Buf (Elt F) ((c : Thread nD τ).loc b)) :
    ((dat1 V c).arrays (fun w => V' (Pipeline.arrRef spec1 w)) : sProp 𝕄)
      = iprop((((c : Thread nD τ).loc main_v0) ↦{fullShare.left} V' main_v0) ∗ (((c : Thread nD τ).loc main_v0) ↦{fullShare.right} V' main_v0)
          ∗ (((c : Thread nD τ).loc main_arg5) ↦{fullShare} V' main_arg5)
          ∗ (((c : Thread nD τ).loc main_arg6) ↦{fullShare} V' main_arg6) ∗ (((c : Thread nD τ).loc main_v1) ↦{fullShare} V' main_v1)) := by
  unfold Dat.arrays
  rw [bigSep_W1, (arr_whole1 0).set_eq_univ, (arr_whole1 2).set_eq_univ, (arr_whole1 3).set_eq_univ,
    (arr_whole1 4).set_eq_univ, share1_0, share1_1, share1_2, share1_3, share1_4]

/-- ENTRY: the buffers behind region 1's arrays, each whole at the full share, make the windows' arrays: the
    projected sequence's buffer is split into its two half shares, one per window that reads it. -/
theorem arrays1_of_bufs (V : (c : Dev nD) → (b : Ref sig .tc) → Buf (Elt F) ((c : Thread nD τ).loc b)) (c : Dev nD)
    (V' : (b : Ref sig .tc) → Buf (Elt F) ((c : Thread nD τ).loc b))
    (G : (w : Fin cfg1.W) → Buf (Elt F) ((cfg1.win w).arr.view.loc (c : Thread nD τ))) (hG : ∀ w, G w = V' (Pipeline.arrRef spec1 w)) :
    (Pipeline.arrBufs (Ix := Unit) (Name := ℕ) (U := UR sig nD τ) (Lvl := ℕ) spec1 c V' : sProp 𝕄) ⊢ (dat1 V c).arrays G := by
  obtain rfl : G = fun w => V' (Pipeline.arrRef spec1 w) := funext hG
  rw [arrBufs1_eq, arrays1_eq]
  iintro ⟨H0, H5, H6, H1⟩
  ihave H := (pointsTo_share (PosShare.mem_left_op_right fullShare)).1 $$ H0
  icases H with ⟨Hl, Hr⟩
  isplitl [Hl]; · iexact Hl
  isplitl [Hr]; · iexact Hr
  isplitl [H5]; · iexact H5
  isplitl [H6]; · iexact H6
  iexact H1

/-- EXIT: the windows' arrays make the buffers behind them, each whole at the full share: the two half shares of
    the projected sequence's buffer, held at one contents, are joined. -/
theorem bufs_of_arrays1 (V : (c : Dev nD) → (b : Ref sig .tc) → Buf (Elt F) ((c : Thread nD τ).loc b)) (c : Dev nD)
    (V' : (b : Ref sig .tc) → Buf (Elt F) ((c : Thread nD τ).loc b))
    (G : (w : Fin cfg1.W) → Buf (Elt F) ((cfg1.win w).arr.view.loc (c : Thread nD τ))) (hG : ∀ w, G w = V' (Pipeline.arrRef spec1 w)) :
    ((dat1 V c).arrays G : sProp 𝕄) ⊢ Pipeline.arrBufs (Ix := Unit) (Name := ℕ) (U := UR sig nD τ) (Lvl := ℕ) spec1 c V' := by
  obtain rfl : G = fun w => V' (Pipeline.arrRef spec1 w) := funext hG
  rw [arrBufs1_eq, arrays1_eq]
  iintro ⟨Hl, Hr, H5, H6, H1⟩
  isplitl [Hl Hr]
  · iapply (pointsTo_share (PosShare.mem_left_op_right fullShare)).2
    isplitl [Hl]; · iexact Hl
    iexact Hr
  isplitl [H5]; · iexact H5
  isplitl [H6]; · iexact H6
  iexact H1

/-- At region 1's exit each of its arrays holds what the pipeline leaves: an input as it was entered (never
    written; the two windows on the projected sequence both find it as entered), the result at the fold of the
    write-backs. -/
theorem hF1 (c : Dev nD) : ∀ w : Fin cfg1.W, (dat1 (V1 m ρ) c).arrAt w cfg1.N = V2 m ρ c (Pipeline.arrRef spec1 w)
  | ⟨0, _⟩ => (((dat1 (V1 m ρ) c).arrAt_in 0 rfl _).trans (A_eq1 (V1 m ρ) c 0)).trans (W2_of_ne m ρ c (Pipeline.arrRef spec1 0) (by decide)).symm
  | ⟨1, _⟩ => (((dat1 (V1 m ρ) c).arrAt_in 1 rfl _).trans (A_eq1 (V1 m ρ) c 1)).trans (W2_of_ne m ρ c (Pipeline.arrRef spec1 1) (by decide)).symm
  | ⟨2, _⟩ => (((dat1 (V1 m ρ) c).arrAt_in 2 rfl _).trans (A_eq1 (V1 m ρ) c 2)).trans (W2_of_ne m ρ c (Pipeline.arrRef spec1 2) (by decide)).symm
  | ⟨3, _⟩ => (((dat1 (V1 m ρ) c).arrAt_in 3 rfl _).trans (A_eq1 (V1 m ρ) c 3)).trans (W2_of_ne m ρ c (Pipeline.arrRef spec1 3) (by decide)).symm
  | ⟨4, _⟩ => (W2_main_v1 m ρ c).symm
/-- Off region 1's arrays nothing changes: the one rewritten buffer is a window's array. -/
theorem hrest1 (c : Dev nD) : ∀ b, b ∉ Finset.univ.image (Pipeline.arrRef spec1) → V2 m ρ c b = V1 m ρ c b :=
  fun b hb => W2_of_ne m ρ c b fun e => hb (Finset.mem_image.mpr ⟨(4 : Fin cfg1.W), Finset.mem_univ _, e.symm⟩)

/-- ENTRY, the buffers' part: every unscoped buffer at the contents region 0 left is region 1's arrays at their
    entry contents and the unscoped rest. -/
theorem entry1 (c : Dev nD) :
    (StableHlo.held (c : Thread nD τ) (Pipeline.ucRefs τ sig) (W1 m ρ c) : sProp 𝕄)
      ⊢ iprop((pdats m ρ 1 c).arrays ((pdats m ρ 1 c).arrAt · 0)
          ∗ Pipeline.unscopedRest (Ix := Unit) (Name := ℕ) (U := UR sig nD τ) (Lvl := ℕ) spec1 c (V1 m ρ c)) := by
  have hsplit := Pipeline.unscopedBufs_split₀ (Ix := Unit) (Name := ℕ) (U := UR sig nD τ) (Lvl := ℕ) (Val := Elt F) cfgs 1
    winFacts₀1.arr_unscoped c (V1 m ρ c)
  rw [Pipeline.unscopedBufs_held] at hsplit
  rw [hsplit]
  exact sep_mono (arrays1_of_bufs (V1 m ρ) c (V1 m ρ c) _ fun w => A_eq1 (V1 m ρ) c w) .rfl

/-- EXIT, the buffers' part: region 1's arrays at what the pipeline leaves and the unscoped rest as entered are
    every unscoped buffer at the last boundary's contents. -/
theorem exit1 (c : Dev nD) :
    iprop((pdats m ρ 1 c).arrays ((pdats m ρ 1 c).arrAt · cfg1.N)
        ∗ Pipeline.unscopedRest (Ix := Unit) (Name := ℕ) (U := UR sig nD τ) (Lvl := ℕ) spec1 c (V1 m ρ c))
      ⊢ (StableHlo.held (c : Thread nD τ) (Pipeline.ucRefs τ sig) (W2 m ρ c) : sProp 𝕄) := by
  have hsplit := Pipeline.unscopedBufs_split₀ (Ix := Unit) (Name := ℕ) (U := UR sig nD τ) (Lvl := ℕ) (Val := Elt F) cfgs 1
    winFacts₀1.arr_unscoped c (V2 m ρ c)
  rw [Pipeline.unscopedBufs_held] at hsplit
  rw [hsplit]
  refine sep_mono (bufs_of_arrays1 (V1 m ρ) c (V2 m ρ c) _ (hF1 m ρ c)) (Entails.of_eq ?_)
  unfold Pipeline.unscopedRest
  exact bigSep_congr fun b hb => by rw [hrest1 m ρ c b (Finset.mem_sdiff.mp hb).2]

set_option backward.isDefEq.respectTransparency.types false in
/-- Region 1 over the thread state: entered from every unscoped buffer at `W1`, left at `W2`. Two of its windows
    read one array: at entry that array's buffer is split into its two half shares, at exit they are joined. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    iintro ⟨⟨Hub, Hp, HO⟩, -, -⟩
    ihave H := entry1 m ρ c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply exit1 m ρ c; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and the
    final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W2_arg m ρ c main_arg0 (by decide) (by decide)),
     (h c _ (mem_uc main_arg1 (by decide))).trans (W2_arg m ρ c main_arg1 (by decide) (by decide)),
     (h c _ (mem_uc main_arg2 (by decide))).trans (W2_arg m ρ c main_arg2 (by decide) (by decide)),
     (h c _ (mem_uc main_arg3 (by decide))).trans (W2_arg m ρ c main_arg3 (by decide) (by decide)),
     (h c _ (mem_uc main_arg4 (by decide))).trans (W2_arg m ρ c main_arg4 (by decide) (by decide)),
     (h c _ (mem_uc main_arg5 (by decide))).trans (W2_arg m ρ c main_arg5 (by decide) (by decide)),
     (h c _ (mem_uc main_arg6 (by decide))).trans (W2_arg m ρ c main_arg6 (by decide) (by decide))⟩) (run_all m ρ)

/-- The run with the result array named: region 1's folded write-backs. -/
theorem run_result : θ_run defs (onTc (τ := τ) (main (F := F))) ⟨m, fun _ => 0, ρ⟩ (fun r => ∀ c : Dev nD,
      r.2.mem ((c.tc : Thread nD τ).loc main_v1) = (dat1 (V1 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v1 (by decide))).trans (W2_main_v1 m ρ c),
     (h c _ (mem_uc main_arg0 (by decide))).trans (W2_arg m ρ c main_arg0 (by decide) (by decide)),
     (h c _ (mem_uc main_arg1 (by decide))).trans (W2_arg m ρ c main_arg1 (by decide) (by decide)),
     (h c _ (mem_uc main_arg2 (by decide))).trans (W2_arg m ρ c main_arg2 (by decide) (by decide)),
     (h c _ (mem_uc main_arg3 (by decide))).trans (W2_arg m ρ c main_arg3 (by decide) (by decide)),
     (h c _ (mem_uc main_arg4 (by decide))).trans (W2_arg m ρ c main_arg4 (by decide) (by decide)),
     (h c _ (mem_uc main_arg5 (by decide))).trans (W2_arg m ρ c main_arg5 (by decide) (by decide)),
     (h c _ (mem_uc main_arg6 (by decide))).trans (W2_arg m ρ c main_arg6 (by decide) (by decide))⟩) (run_all m ρ)

end Cert.Kernel.Hand

end
-- ==== Proof.KI.Body0.lean ====
/-
  Region 0 of @main (the LayerNorm + projection kernel) on one core, at the buffer contents `V` the region is
  entered with: what each of its six windows holds at a grid point, what the body leaves in the output window's
  staging buffer (its one whole-block store over the loaded input blocks), the body's triple, the pipeline's proof
  data and the body obligation at every point. Generic in the float instance.
-/
import proofs.«170736_j32031866094096_1_alg».proof.Proof.Gen.KernelIdeal.Launch
import proofs.«170736_j32031866094096_1_alg».proof.Proof.Gen.KernelIdeal.Skeleton
import proofs.«170736_j32031866094096_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body loads and stores through. -/
abbrev r0_x : Rect S1x512x1024 := Rect.unit (s := S1x512x1024) ![0, 0, 0] S1x512x1024.size inb_S1x512x1024_S1x512x1024_0_0_0
abbrev r0_g : Rect S1024 := Rect.unit (s := S1024) ![0] S1024.size inb_S1024_S1024_0
abbrev r0_w : Rect S64x1024 := Rect.unit (s := S64x1024) ![0, 0] S64x1024.size inb_S64x1024_S64x1024_0_0
abbrev r0_b : Rect S64 := Rect.unit (s := S64) ![0] S64.size inb_S64_S64_0
abbrev r0_o : Rect S1x512x64 := Rect.unit (s := S1x512x64) ![0, 0, 0] S1x512x64.size inb_S1x512x64_S1x512x64_0_0_0

/-- The output window's staging buffer after the body, from the five input blocks: its one store. -/
def out0_5 (x0 : Vec F S1x512x1024 .f32) (x1 x2 : Vec F S1024 .f32) (x3 : Vec F S64x1024 .f32) (x4 : Vec F S64 .f32) : Vec F S1x512x64 .f32 :=
  View.canon [⟨r0_o, k0_pay1 (View.ld x0 r0_x) (View.ld x1 r0_g) (View.ld x2 r0_g) (View.ld x3 r0_w) (View.ld x4 r0_b)⟩]

/-- The store covers the buffer. -/
theorem cover0_5 (p0 : Vec F S1x512x64 .f32) (y : S1x512x64.Idx) :
    ∃ pc ∈ ([⟨r0_o, p0⟩] : List (View.Piece (Elt F) S1x512x64 .f32)), y ∈ pc.1.set :=
  View.cover_of_tiled [⟨r0_o, p0⟩] S1x512x64.size (by rfl) y

set_option maxHeartbeats 1000000 in
/-- The body on whole staging memrefs: inputs at contents `xW`, the output at anything; it returns the inputs as
    they were and the output at `out0_5` of the inputs. -/
theorem sound_kernel0 (c : Dev nD) (E : Set ℕ) (i : grid0.Coords)
    (arg1 : Memref sig .tc .vmem S1x512x1024 .f32) (harg1 : arg1.IsWhole) (arg2 : Memref sig .tc .vmem S1024 .f32) (harg2 : arg2.IsWhole)
    (arg3 : Memref sig .tc .vmem S1024 .f32) (harg3 : arg3.IsWhole) (arg4 : Memref sig .tc .vmem S64x1024 .f32) (harg4 : arg4.IsWhole)
    (arg5 : Memref sig .tc .vmem S64 .f32) (harg5 : arg5.IsWhole) (arg6 : Memref sig .tc .vmem S1x512x64 .f32) (harg6 : arg6.IsWhole)
    (x0 : Vec F S1x512x1024 .f32) (x1 x2 : Vec F S1024 .f32) (x3 : Vec F S64x1024 .f32) (x4 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__ln_proj_kernel i arg1 harg1 arg2 harg2 arg3 harg3 arg4 harg4 arg5 harg5 arg6 harg6) K := by
  simp only [cc0__ln_proj_kernel_eq_skeleton]; unfold cc0__ln_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-- Input window 0's current staging buffer holds its block at every point, fetched there or not, for any proof
    data whose array is `V`'s and whose body leaves the block in place: unfetched, the block index has not moved,
    and the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

/-- Input window 1's current staging buffer holds its block at every point, fetched there or not, for any proof
    data whose array is `V`'s and whose body leaves the block in place: unfetched, the block index has not moved,
    and the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_1 (c : Dev nD) (t : Fin cfg0.N) (d) : (dat0 V c).before 1 t d = iblk0 V c 1 t :=
  before0_1_of V (dat0 V c) (A_eq0 V c 1) (after0_1 V c) t d

/-- Input window 2's current staging buffer holds its block at every point, fetched there or not, for any proof
    data whose array is `V`'s and whose body leaves the block in place: unfetched, the block index has not moved,
    and the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_2 (c : Dev nD) (t : Fin cfg0.N) (d) : (dat0 V c).before 2 t d = iblk0 V c 2 t :=
  before0_2_of V (dat0 V c) (A_eq0 V c 2) (after0_2 V c) t d

/-- Input window 3's current staging buffer holds its block at every point, fetched there or not, for any proof
    data whose array is `V`'s and whose body leaves the block in place: unfetched, the block index has not moved,
    and the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_3 (c : Dev nD) (t : Fin cfg0.N) (d) : (dat0 V c).before 3 t d = iblk0 V c 3 t :=
  before0_3_of V (dat0 V c) (A_eq0 V c 3) (after0_3 V c) t d

/-- Input window 4's current staging buffer holds its block at every point, fetched there or not, for any proof
    data whose array is `V`'s and whose body leaves the block in place: unfetched, the block index has not moved,
    and the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: each input's memref holds its block, so the body's triple applies; the invariant and the
    core's debt pass through unread, and the output's prior contents are whatever they are. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := by
  intro t
  rw [bigSep_W0, bigSep_W0]
  exact sound_body0 V c t

end Cert.KernelIdeal.Hand

end
-- ==== Proof.KI.Body1.lean ====
/-
  Region 1 of @main (the pairwise product / difference kernel) on one core, at the buffer contents `V` the region
  is entered with. Its first two windows read ONE array (the projected sequence, once by rows of the second pair
  axis and once by rows of the first), so each holds half of that array's share; the other two inputs and the
  output are whole. What each window holds at a grid point, what the body leaves in the output window's staging
  buffer, the body's triple, the proof data and the body obligation. Generic in the float instance.
-/
import proofs.«170736_j32031866094096_1_alg».proof.Proof.Gen.KernelIdeal.Launch
import proofs.«170736_j32031866094096_1_alg».proof.Proof.Gen.KernelIdeal.Skeleton
import proofs.«170736_j32031866094096_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangles the body loads and stores through: the first 32 columns of the 128-row block, the last 32
    columns of the 64-row block, the two whole parameter blocks, the whole output block. -/
abbrev r1_q : Rect S1x128x64 := Rect.unit (s := S1x128x64) ![0, 0, 0] S1x128x32.size inb_S1x128x64_S1x128x32_0_0_0
abbrev r1_k : Rect S1x64x64 := Rect.unit (s := S1x64x64) ![0, 0, 32] S1x64x32.size inb_S1x64x64_S1x64x32_0_0_32
abbrev r1_w : Rect S128x64 := Rect.unit (s := S128x64) ![0, 0] S128x64.size inb_S128x64_S128x64_0_0
abbrev r1_b : Rect S128 := Rect.unit (s := S128) ![0] S128.size inb_S128_S128_0
abbrev r1_o : Rect S1x64x128x128 := Rect.unit (s := S1x64x128x128) ![0, 0, 0, 0] S1x64x128x128.size inb_S1x64x128x128_S1x64x128x128_0_0_0_0

/-- The output window's staging buffer after the body, from the four input blocks: its one store. -/
def out1_4 (x0 : Vec F S1x128x64 .f32) (x1 : Vec F S1x64x64 .f32) (x2 : Vec F S128x64 .f32) (x3 : Vec F S128 .f32) : Vec F S1x64x128x128 .f32 :=
  View.canon [⟨r1_o, k1_pay1 (View.ld x0 r1_q) (View.ld x1 r1_k) (View.ld x2 r1_w) (View.ld x3 r1_b)⟩]

/-- The store covers the buffer. -/
theorem cover1_4 (p0 : Vec F S1x64x128x128 .f32) (y : S1x64x128x128.Idx) :
    ∃ pc ∈ ([⟨r1_o, p0⟩] : List (View.Piece (Elt F) S1x64x128x128 .f32)), y ∈ pc.1.set :=
  View.cover_of_tiled [⟨r1_o, p0⟩] S1x64x128x128.size (by rfl) y

set_option maxHeartbeats 1000000 in
/-- The body on whole staging memrefs: inputs at contents `xW`, the output at anything; it returns the inputs as
    they were and the output at `out1_4` of the inputs. -/
theorem sound_kernel1 (c : Dev nD) (E : Set ℕ) (i : grid1.Coords)
    (arg3 : Memref sig .tc .vmem S1x128x64 .f32) (harg3 : arg3.IsWhole) (arg4 : Memref sig .tc .vmem S1x64x64 .f32) (harg4 : arg4.IsWhole)
    (arg5 : Memref sig .tc .vmem S128x64 .f32) (harg5 : arg5.IsWhole) (arg6 : Memref sig .tc .vmem S128 .f32) (harg6 : arg6.IsWhole)
    (arg7 : Memref sig .tc .vmem S1x64x128x128 .f32) (harg7 : arg7.IsWhole)
    (x0 : Vec F S1x128x64 .f32) (x1 : Vec F S1x64x64 .f32) (x2 : Vec F S128x64 .f32) (x3 : Vec F S128 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3
            ∗ owns (c : Thread nD τ) arg7 fullShare (out1_4 x0 x1 x2 x3)) -∗ K ⟨⟩))
      ⊢ wp frame (wpE (defs₀ (F := F)) Variants.none c none) E (cc1__pair_kernel i arg3 harg3 arg4 harg4 arg5 harg5 arg6 harg6 arg7 harg7) K := by
  simp only [cc1__pair_kernel_eq_skeleton]; unfold cc1__pair_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of pipeline 1 on core `c`. The two windows on the shared array hold the two halves of its share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem q1_0 (c : Dev nD) : (dat1 V c).q 0 = fullShare.left := by dsimp only [dat1]
theorem q1_1 (c : Dev nD) : (dat1 V c).q 1 = fullShare.right := by dsimp only [dat1]
theorem q1_2 (c : Dev nD) : (dat1 V c).q 2 = fullShare := by dsimp only [dat1]
theorem q1_3 (c : Dev nD) : (dat1 V c).q 3 = fullShare := by dsimp only [dat1]
theorem q1_4 (c : Dev nD) : (dat1 V c).q 4 = fullShare := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Input window 0's current staging buffer holds its block at every point, fetched there or not: unfetched, the
    block index has not moved since the last fetch, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

/-- Input window 1's current staging buffer holds its block at every point, fetched there or not: unfetched, the
    block index has not moved since the last fetch, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_1 (c : Dev nD) (t : Fin cfg1.N) (d) : (dat1 V c).before 1 t d = iblk1 V c 1 t :=
  before1_1_of V (dat1 V c) (A_eq1 V c 1) (after1_1 V c) t d

/-- Input window 2's current staging buffer holds its block at every point, fetched there or not: unfetched, the
    block index has not moved since the last fetch, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_2 (c : Dev nD) (t : Fin cfg1.N) (d) : (dat1 V c).before 2 t d = iblk1 V c 2 t :=
  before1_2_of V (dat1 V c) (A_eq1 V c 2) (after1_2 V c) t d

/-- Input window 3's current staging buffer holds its block at every point, fetched there or not: unfetched, the
    block index has not moved since the last fetch, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_3 (c : Dev nD) (t : Fin cfg1.N) (d) : (dat1 V c).before 3 t d = iblk1 V c 3 t :=
  before1_3_of V (dat1 V c) (A_eq1 V c 3) (after1_3 V c) t d

/-- What the body is called with at point `t`: the invariant, the core's debt, and each window's current staging
    buffer, whole, at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: each input's buffer holds its block, so the body's triple applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The run of @main: two kernel regions, one after the other, on each core. The buffer contents at the three
  boundaries (launch; after region 0, which rewrites only the projected sequence; after region 1, which rewrites
  only the result), each region as a segment over the thread state "every unscoped buffer at the boundary's
  contents, the generator register at some state, nothing owed", and the launch: every weakly fair execution
  terminates with every unscoped buffer at the last boundary's contents. From it the frame (no argument array is
  rewritten) and the result array as region 1's folded write-backs. Generic in the float instance.
-/
import proofs.«170736_j32031866094096_1_alg».proof.Proof.Gen.KernelIdeal.Launch
import proofs.«170736_j32031866094096_1_alg».proof.Proof.Gen.KernelIdeal.Skeleton
import proofs.«170736_j32031866094096_1_alg».proof.Proof.Gen.KernelIdeal.Points
import proofs.«170736_j32031866094096_1_alg».proof.Proof.KI.Body0
import proofs.«170736_j32031866094096_1_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After region 0: the projected sequence at the fold of region 0's write-backs, every other buffer as launched. -/
def W1 (c : Dev nD) : Valuation τ sig (Elt F) :=
  Function.update (W0 m ρ c) (Proc.devRef .tc main_v0) ((dat0 (V0 m ρ) c).arrAt 5 cfg0.N)
abbrev V1 : (c : Dev nD) → (b : Ref sig .tc) → Buf (Elt F) ((c : Thread nD τ).loc b) := fun c b => W1 m ρ c b
/-- After region 1: the result at the fold of region 1's write-backs, every other buffer as region 1 found it. -/
def W2 (c : Dev nD) : Valuation τ sig (Elt F) :=
  Function.update (W1 m ρ c) (Proc.devRef .tc main_v1) ((dat1 (V1 m ρ) c).arrAt 4 cfg1.N)
abbrev V2 : (c : Dev nD) → (b : Ref sig .tc) → Buf (Elt F) ((c : Thread nD τ).loc b) := fun c b => W2 m ρ c b

theorem W1_main_v0 (c : Dev nD) : W1 m ρ c (Proc.devRef .tc main_v0) = (dat0 (V0 m ρ) c).arrAt 5 cfg0.N := by
  unfold W1; exact Function.update_self ..
theorem W1_of_ne (c : Dev nD) (b : Ref sig .tc) (hb : b ≠ main_v0) : W1 m ρ c (Proc.devRef .tc b) = W0 m ρ c (Proc.devRef .tc b) := by
  unfold W1; exact Function.update_of_ne (StableHlo.devRef_ne_of_ne hb) ..
theorem W2_main_v1 (c : Dev nD) : W2 m ρ c (Proc.devRef .tc main_v1) = (dat1 (V1 m ρ) c).arrAt 4 cfg1.N := by
  unfold W2; exact Function.update_self ..
theorem W2_of_ne (c : Dev nD) (b : Ref sig .tc) (hb : b ≠ main_v1) : W2 m ρ c (Proc.devRef .tc b) = W1 m ρ c (Proc.devRef .tc b) := by
  unfold W2; exact Function.update_of_ne (StableHlo.devRef_ne_of_ne hb) ..

/-- An argument array is rewritten by neither region. -/
theorem W2_arg (c : Dev nD) (b : Ref sig .tc) (h1 : b ≠ main_v1) (h0 : b ≠ main_v0) :
    W2 m ρ c (Proc.devRef .tc b) = m ((c : Thread nD τ).loc b) :=
  (W2_of_ne m ρ c b h1).trans ((W1_of_ne m ρ c b h0).trans rfl)

/-- Region 1 finds the projected sequence as region 0 left it. -/
theorem V1_main_v0 (c : Dev nD) : V1 m ρ c main_v0 = (dat0 (V0 m ρ) c).arrAt 5 cfg0.N := W1_main_v0 m ρ c
theorem V1_arg (c : Dev nD) (b : Ref sig .tc) (h0 : b ≠ main_v0) : V1 m ρ c b = m ((c : Thread nD τ).loc b) := W1_of_ne m ρ c b h0

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through both regions: the generator register at some state, nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The regions as segments -/

/-- At region 0's exit each of its arrays holds what the pipeline leaves: an input as it was entered (never
    written), the projected sequence at the fold of the write-backs. -/
theorem hF0 (c : Dev nD) : ∀ w : Fin cfg0.W, (dat0 (V0 m ρ) c).arrAt w cfg0.N = V1 m ρ c (Pipeline.arrRef spec0 w)
  | ⟨0, _⟩ => (((dat0 (V0 m ρ) c).arrAt_in 0 rfl _).trans (A_eq0 (V0 m ρ) c 0)).trans (W1_of_ne m ρ c (Pipeline.arrRef spec0 0) (by decide)).symm
  | ⟨1, _⟩ => (((dat0 (V0 m ρ) c).arrAt_in 1 rfl _).trans (A_eq0 (V0 m ρ) c 1)).trans (W1_of_ne m ρ c (Pipeline.arrRef spec0 1) (by decide)).symm
  | ⟨2, _⟩ => (((dat0 (V0 m ρ) c).arrAt_in 2 rfl _).trans (A_eq0 (V0 m ρ) c 2)).trans (W1_of_ne m ρ c (Pipeline.arrRef spec0 2) (by decide)).symm
  | ⟨3, _⟩ => (((dat0 (V0 m ρ) c).arrAt_in 3 rfl _).trans (A_eq0 (V0 m ρ) c 3)).trans (W1_of_ne m ρ c (Pipeline.arrRef spec0 3) (by decide)).symm
  | ⟨4, _⟩ => (((dat0 (V0 m ρ) c).arrAt_in 4 rfl _).trans (A_eq0 (V0 m ρ) c 4)).trans (W1_of_ne m ρ c (Pipeline.arrRef spec0 4) (by decide)).symm
  | ⟨5, _⟩ => (W1_main_v0 m ρ c).symm
/-- Off region 0's arrays nothing changes: the one rewritten buffer is a window's array. -/
theorem hrest0 (c : Dev nD) : ∀ b, b ∉ Finset.univ.image (Pipeline.arrRef spec0) → V1 m ρ c b = V0 m ρ c b :=
  fun b hb => W1_of_ne m ρ c b fun e => hb (Finset.mem_image.mpr ⟨(5 : Fin cfg0.W), Finset.mem_univ _, e.symm⟩)

set_option backward.isDefEq.respectTransparency.types false in
/-- Region 0 over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 1: one array behind two windows

Region 1's first two windows read the projected sequence, each at half of its share; the buffers behind its
arrays are four, not five. At entry the sequence's buffer, whole at the full share, is split into the two halves;
at exit the halves, still at one contents (no window writes it), are joined. -/

/-- The distinct buffers behind region 1's windows, listed. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v0) ↦{fullShare} V' main_v0) ∗ (((c : Thread nD τ).loc main_arg5) ↦{fullShare} V' main_arg5)
          ∗ (((c : Thread nD τ).loc main_arg6) ↦{fullShare} V' main_arg6) ∗ (((c : Thread nD τ).loc main_v1) ↦{fullShare} V' main_v1)) := by
  unfold Pipeline.arrBufs
  exact bigSep_eq_bigSepL_of_eq [main_v0, main_arg5, main_arg6, main_v1] (by decide) (by decide) _

/-- The share each window of region 1 holds its array at. -/
theorem share1_0 (V : (c : Dev nD) → (b : Ref sig .tc) → Buf (Elt F) ((c : Thread nD τ).loc b)) (c : Dev nD) : (dat1 V c).share 0 = fullShare.left := rfl
theorem share1_1 (V : (c : Dev nD) → (b : Ref sig .tc) → Buf (Elt F) ((c : Thread nD τ).loc b)) (c : Dev nD) : (dat1 V c).share 1 = fullShare.right := rfl
theorem share1_2 (V : (c : Dev nD) → (b : Ref sig .tc) → Buf (Elt F) ((c : Thread nD τ).loc b)) (c : Dev nD) : (dat1 V c).share 2 = fullShare := rfl
theorem share1_3 (V : (c : Dev nD) → (b : Ref sig .tc) → Buf (Elt F) ((c : Thread nD τ).loc b)) (c : Dev nD) : (dat1 V c).share 3 = fullShare := rfl
theorem share1_4 (V : (c : Dev nD) → (b : Ref sig .tc) → Buf (Elt F) ((c : Thread nD τ).loc b)) (c : Dev nD) : (dat1 V c).share 4 = fullShare := rfl

/-- Region 1's windowed arrays at the contents a valuation gives them, window by window: the projected sequence
    twice, at the two halves of the full share, the other three whole at the full share. (Every array is a whole
    buffer, so a window's element set is all of it.) -/
theorem arrays1_eq (V : (c : Dev nD) → (b : Ref sig .tc) → Buf (Elt F) ((c : Thread nD τ).loc b)) (c : Dev nD)
    (V' : (b : Ref sig .tc) → Buf (Elt F) ((c : Thread nD τ).loc b)) :
    ((dat1 V c).arrays (fun w => V' (Pipeline.arrRef spec1 w)) : sProp 𝕄)
      = iprop((((c : Thread nD τ).loc main_v0) ↦{fullShare.left} V' main_v0) ∗ (((c : Thread nD τ).loc main_v0) ↦{fullShare.right} V' main_v0)
          ∗ (((c : Thread nD τ).loc main_arg5) ↦{fullShare} V' main_arg5)
          ∗ (((c : Thread nD τ).loc main_arg6) ↦{fullShare} V' main_arg6) ∗ (((c : Thread nD τ).loc main_v1) ↦{fullShare} V' main_v1)) := by
  unfold Dat.arrays
  rw [bigSep_W1, (arr_whole1 0).set_eq_univ, (arr_whole1 2).set_eq_univ, (arr_whole1 3).set_eq_univ,
    (arr_whole1 4).set_eq_univ, share1_0, share1_1, share1_2, share1_3, share1_4]

/-- ENTRY: the buffers behind region 1's arrays, each whole at the full share, make the windows' arrays: the
    projected sequence's buffer is split into its two half shares, one per window that reads it. -/
theorem arrays1_of_bufs (V : (c : Dev nD) → (b : Ref sig .tc) → Buf (Elt F) ((c : Thread nD τ).loc b)) (c : Dev nD)
    (V' : (b : Ref sig .tc) → Buf (Elt F) ((c : Thread nD τ).loc b))
    (G : (w : Fin cfg1.W) → Buf (Elt F) ((cfg1.win w).arr.view.loc (c : Thread nD τ))) (hG : ∀ w, G w = V' (Pipeline.arrRef spec1 w)) :
    (Pipeline.arrBufs (Ix := Unit) (Name := ℕ) (U := UR sig nD τ) (Lvl := ℕ) spec1 c V' : sProp 𝕄) ⊢ (dat1 V c).arrays G := by
  obtain rfl : G = fun w => V' (Pipeline.arrRef spec1 w) := funext hG
  rw [arrBufs1_eq, arrays1_eq]
  iintro ⟨H0, H5, H6, H1⟩
  ihave H := (pointsTo_share (PosShare.mem_left_op_right fullShare)).1 $$ H0
  icases H with ⟨Hl, Hr⟩
  isplitl [Hl]; · iexact Hl
  isplitl [Hr]; · iexact Hr
  isplitl [H5]; · iexact H5
  isplitl [H6]; · iexact H6
  iexact H1

/-- EXIT: the windows' arrays make the buffers behind them, each whole at the full share: the two half shares of
    the projected sequence's buffer, held at one contents, are joined. -/
theorem bufs_of_arrays1 (V : (c : Dev nD) → (b : Ref sig .tc) → Buf (Elt F) ((c : Thread nD τ).loc b)) (c : Dev nD)
    (V' : (b : Ref sig .tc) → Buf (Elt F) ((c : Thread nD τ).loc b))
    (G : (w : Fin cfg1.W) → Buf (Elt F) ((cfg1.win w).arr.view.loc (c : Thread nD τ))) (hG : ∀ w, G w = V' (Pipeline.arrRef spec1 w)) :
    ((dat1 V c).arrays G : sProp 𝕄) ⊢ Pipeline.arrBufs (Ix := Unit) (Name := ℕ) (U := UR sig nD τ) (Lvl := ℕ) spec1 c V' := by
  obtain rfl : G = fun w => V' (Pipeline.arrRef spec1 w) := funext hG
  rw [arrBufs1_eq, arrays1_eq]
  iintro ⟨Hl, Hr, H5, H6, H1⟩
  isplitl [Hl Hr]
  · iapply (pointsTo_share (PosShare.mem_left_op_right fullShare)).2
    isplitl [Hl]; · iexact Hl
    iexact Hr
  isplitl [H5]; · iexact H5
  isplitl [H6]; · iexact H6
  iexact H1

/-- At region 1's exit each of its arrays holds what the pipeline leaves: an input as it was entered (never
    written; the two windows on the projected sequence both find it as entered), the result at the fold of the
    write-backs. -/
theorem hF1 (c : Dev nD) : ∀ w : Fin cfg1.W, (dat1 (V1 m ρ) c).arrAt w cfg1.N = V2 m ρ c (Pipeline.arrRef spec1 w)
  | ⟨0, _⟩ => (((dat1 (V1 m ρ) c).arrAt_in 0 rfl _).trans (A_eq1 (V1 m ρ) c 0)).trans (W2_of_ne m ρ c (Pipeline.arrRef spec1 0) (by decide)).symm
  | ⟨1, _⟩ => (((dat1 (V1 m ρ) c).arrAt_in 1 rfl _).trans (A_eq1 (V1 m ρ) c 1)).trans (W2_of_ne m ρ c (Pipeline.arrRef spec1 1) (by decide)).symm
  | ⟨2, _⟩ => (((dat1 (V1 m ρ) c).arrAt_in 2 rfl _).trans (A_eq1 (V1 m ρ) c 2)).trans (W2_of_ne m ρ c (Pipeline.arrRef spec1 2) (by decide)).symm
  | ⟨3, _⟩ => (((dat1 (V1 m ρ) c).arrAt_in 3 rfl _).trans (A_eq1 (V1 m ρ) c 3)).trans (W2_of_ne m ρ c (Pipeline.arrRef spec1 3) (by decide)).symm
  | ⟨4, _⟩ => (W2_main_v1 m ρ c).symm
/-- Off region 1's arrays nothing changes: the one rewritten buffer is a window's array. -/
theorem hrest1 (c : Dev nD) : ∀ b, b ∉ Finset.univ.image (Pipeline.arrRef spec1) → V2 m ρ c b = V1 m ρ c b :=
  fun b hb => W2_of_ne m ρ c b fun e => hb (Finset.mem_image.mpr ⟨(4 : Fin cfg1.W), Finset.mem_univ _, e.symm⟩)

/-- ENTRY, the buffers' part: every unscoped buffer at the contents region 0 left is region 1's arrays at their
    entry contents and the unscoped rest. -/
theorem entry1 (c : Dev nD) :
    (StableHlo.held (c : Thread nD τ) (Pipeline.ucRefs τ sig) (W1 m ρ c) : sProp 𝕄)
      ⊢ iprop((pdats m ρ 1 c).arrays ((pdats m ρ 1 c).arrAt · 0)
          ∗ Pipeline.unscopedRest (Ix := Unit) (Name := ℕ) (U := UR sig nD τ) (Lvl := ℕ) spec1 c (V1 m ρ c)) := by
  have hsplit := Pipeline.unscopedBufs_split₀ (Ix := Unit) (Name := ℕ) (U := UR sig nD τ) (Lvl := ℕ) (Val := Elt F) cfgs 1
    winFacts₀1.arr_unscoped c (V1 m ρ c)
  rw [Pipeline.unscopedBufs_held] at hsplit
  rw [hsplit]
  exact sep_mono (arrays1_of_bufs (V1 m ρ) c (V1 m ρ c) _ fun w => A_eq1 (V1 m ρ) c w) .rfl

/-- EXIT, the buffers' part: region 1's arrays at what the pipeline leaves and the unscoped rest as entered are
    every unscoped buffer at the last boundary's contents. -/
theorem exit1 (c : Dev nD) :
    iprop((pdats m ρ 1 c).arrays ((pdats m ρ 1 c).arrAt · cfg1.N)
        ∗ Pipeline.unscopedRest (Ix := Unit) (Name := ℕ) (U := UR sig nD τ) (Lvl := ℕ) spec1 c (V1 m ρ c))
      ⊢ (StableHlo.held (c : Thread nD τ) (Pipeline.ucRefs τ sig) (W2 m ρ c) : sProp 𝕄) := by
  have hsplit := Pipeline.unscopedBufs_split₀ (Ix := Unit) (Name := ℕ) (U := UR sig nD τ) (Lvl := ℕ) (Val := Elt F) cfgs 1
    winFacts₀1.arr_unscoped c (V2 m ρ c)
  rw [Pipeline.unscopedBufs_held] at hsplit
  rw [hsplit]
  refine sep_mono (bufs_of_arrays1 (V1 m ρ) c (V2 m ρ c) _ (hF1 m ρ c)) (Entails.of_eq ?_)
  unfold Pipeline.unscopedRest
  exact bigSep_congr fun b hb => by rw [hrest1 m ρ c b (Finset.mem_sdiff.mp hb).2]

set_option backward.isDefEq.respectTransparency.types false in
/-- Region 1 over the thread state: entered from every unscoped buffer at `W1`, left at `W2`. Two of its windows
    read one array: at entry that array's buffer is split into its two half shares, at exit they are joined. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    iintro ⟨⟨Hub, Hp, HO⟩, -, -⟩
    ihave H := entry1 m ρ c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply exit1 m ρ c; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and the
    final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W2_arg m ρ c main_arg0 (by decide) (by decide)),
     (h c _ (mem_uc main_arg1 (by decide))).trans (W2_arg m ρ c main_arg1 (by decide) (by decide)),
     (h c _ (mem_uc main_arg2 (by decide))).trans (W2_arg m ρ c main_arg2 (by decide) (by decide)),
     (h c _ (mem_uc main_arg3 (by decide))).trans (W2_arg m ρ c main_arg3 (by decide) (by decide)),
     (h c _ (mem_uc main_arg4 (by decide))).trans (W2_arg m ρ c main_arg4 (by decide) (by decide)),
     (h c _ (mem_uc main_arg5 (by decide))).trans (W2_arg m ρ c main_arg5 (by decide) (by decide)),
     (h c _ (mem_uc main_arg6 (by decide))).trans (W2_arg m ρ c main_arg6 (by decide) (by decide))⟩) (run_all m ρ)

/-- The run with the result array named: region 1's folded write-backs. -/
theorem run_result : θ_run defs (onTc (τ := τ) (main (F := F))) ⟨m, fun _ => 0, ρ⟩ (fun r => ∀ c : Dev nD,
      r.2.mem ((c.tc : Thread nD τ).loc main_v1) = (dat1 (V1 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v1 (by decide))).trans (W2_main_v1 m ρ c),
     (h c _ (mem_uc main_arg0 (by decide))).trans (W2_arg m ρ c main_arg0 (by decide) (by decide)),
     (h c _ (mem_uc main_arg1 (by decide))).trans (W2_arg m ρ c main_arg1 (by decide) (by decide)),
     (h c _ (mem_uc main_arg2 (by decide))).trans (W2_arg m ρ c main_arg2 (by decide) (by decide)),
     (h c _ (mem_uc main_arg3 (by decide))).trans (W2_arg m ρ c main_arg3 (by decide) (by decide)),
     (h c _ (mem_uc main_arg4 (by decide))).trans (W2_arg m ρ c main_arg4 (by decide) (by decide)),
     (h c _ (mem_uc main_arg5 (by decide))).trans (W2_arg m ρ c main_arg5 (by decide) (by decide)),
     (h c _ (mem_uc main_arg6 (by decide))).trans (W2_arg m ρ c main_arg6 (by decide) (by decide))⟩) (run_all m ρ)

end Cert.KernelIdeal.Hand

end
-- ==== Proof.Spec.lean ====
/-
  What both programs compute, as functions on extended reals.

  `rowProj`: a row of 1024 features is normalised — its mean subtracted, the result scaled by the reciprocal square
  root of the row's mean square deviation plus the constant ε, then by `γ` and shifted by `β`, feature by feature —
  and projected: entry `e` is the sum over the features of the normalised row times row `e` of the projection
  matrix, plus the bias. `qk` applies it to every row (batch entry, position) of the sequence state. Columns 0..31
  of a projected row are its "q" half, columns 32..63 its "k" half.

  `pairAt`: from a q half and a k half (32 inner channels each), for output channel `p`: the sum over the channels
  of `q e · k e` against columns 0..31 of the output matrix's row `p`, plus the sum of `q e − k e` against columns
  32..63 of that row, plus the output bias. `pair` applies it at batch entry `b`, positions `i` and `j`: the q half
  of row `(b, j)` against the k half of row `(b, i)`.
-/
import Idealize.ShloMosaic.PureOps.Ideal
import Idealize.ShloMosaic.Lib.ValueIdx

noncomputable section

namespace Cert.PairSpec

open Idealize.ShloMosaic Idealize.ShloMosaic.ValueIdx

/-- The two float constants the programs share, as the extended reals their words denote. -/
abbrev nFeat : EReal := Ideal.ofBits .f32 0x44800000#32
abbrev eps : EReal := Ideal.ofBits .f32 0x3727C5AC#32

abbrev Sx : Shape := ⟨3, ![2, 512, 1024]⟩
abbrev Sg : Shape := ⟨1, ![1024]⟩
abbrev Swp : Shape := ⟨2, ![64, 1024]⟩
abbrev Sbp : Shape := ⟨1, ![64]⟩
abbrev Sqk : Shape := ⟨3, ![2, 512, 64]⟩
abbrev Swo : Shape := ⟨2, ![128, 64]⟩
abbrev Sbo : Shape := ⟨1, ![128]⟩
abbrev Sout : Shape := ⟨4, ![2, 512, 512, 128]⟩

/-- Column `e` of the first half, and of the second half, of a 64-wide axis. -/
abbrev lo (e : Fin 32) : Fin 64 := ⟨e.val, by omega⟩
abbrev hi (e : Fin 32) : Fin 64 := ⟨e.val + 32, by omega⟩

/-- The mean of a row. -/
def rowMean (r : Fin 1024 → EReal) : EReal := Ideal.div (∑ d : Fin 1024, r d) nFeat
/-- The row with its mean subtracted. -/
def rowCentred (r : Fin 1024 → EReal) (d : Fin 1024) : EReal := r d - rowMean r
/-- The mean square deviation of a row. -/
def rowVar (r : Fin 1024 → EReal) : EReal := Ideal.div (∑ d : Fin 1024, rowCentred r d * rowCentred r d) nFeat
/-- The normalised row: centred, scaled by `(var + ε)^(-1/2)`, then by `γ`, shifted by `β`. -/
def rowNormed (r : Fin 1024 → EReal) (g bt : Sg.Idx → EReal) (d : Fin 1024) : EReal :=
  rowCentred r d * Ideal.rsqrt (rowVar r + eps) * g (ix1 d) + bt (ix1 d)
/-- The normalised row projected on row `e` of the projection matrix, plus the bias. -/
def rowProj (r : Fin 1024 → EReal) (g bt : Sg.Idx → EReal) (wp : Swp.Idx → EReal) (bp : Sbp.Idx → EReal) (e : Fin 64) : EReal :=
  (∑ d : Fin 1024, rowNormed r g bt d * wp (ix2 e d)) + bp (ix1 e)
/-- The projected sequence. -/
def qk (x : Sx.Idx → EReal) (g bt : Sg.Idx → EReal) (wp : Swp.Idx → EReal) (bp : Sbp.Idx → EReal) : Sqk.Idx → EReal :=
  fun i => rowProj (fun d => x (ix3 (i 0) (i 1) d)) g bt wp bp (i 2)

/-- One output entry from a q half and a k half. -/
def pairAt (q k : Fin 32 → EReal) (wo : Swo.Idx → EReal) (bo : Sbo.Idx → EReal) (p : Fin 128) : EReal :=
  ((∑ e : Fin 32, (q e * k e) * wo (ix2 p (lo e))) + (∑ e : Fin 32, (q e - k e) * wo (ix2 p (hi e)))) + bo (ix1 p)
/-- The pairwise output: index `(b, i, j, p)` pairs the q half of row `(b, j)` with the k half of row `(b, i)`. -/
def pair (s : Sqk.Idx → EReal) (wo : Swo.Idx → EReal) (bo : Sbo.Idx → EReal) : Sout.Idx → EReal :=
  fun i => pairAt (fun e => s (ix3 (i 0) (i 2) (lo e))) (fun e => s (ix3 (i 0) (i 1) (hi e))) wo bo (i 3)

end Cert.PairSpec

end
-- ==== Proof.KI.Pay0.lean ====
/-
  The LayerNorm + projection body's one stored value, read at an index at the exact instance: row `l`, column `e`
  of the stored block is `PairSpec.rowProj` of row `l` of the loaded sequence block — the two lane sums are sums
  over the 1024 features, the matrix product into a zero accumulator is the sum over the features of the
  normalised row times the transposed projection matrix, and every change of float format is the identity.
-/
import proofs.«170736_j32031866094096_1_alg».proof.Proof.Gen.KernelIdeal.Skeleton
import proofs.«170736_j32031866094096_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.ShloMosaic.ValueIdx

/-! ## Two column forms of the layout operations, read at coordinates -/

/-- A vector `[a]` cast to a column `[a, 1]` reads, at `(i, u)`, the operand at `i`: the two row-major positions are
    `i` and `i · 1 + u` with `u = 0`. -/
theorem proj_shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at `(i, 0)`: the row coordinate is kept (for
    `a = 1` it is `0` anyway), the unit axis reads `0`. -/
theorem proj_broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The lane sum and the matrix product, read at coordinates -/

/-- The sum along the lanes of a `[512, 1024]` block from the zero word, read at row `l`: the sum over the 1024 lanes of
    that row. -/
theorem proj_laneSum_apply (x : FVec Ideal S512x1024 .f32) (h : S512x1024.Reduces [1] S512) (hφ : FKind.Formats .f32)
    (hacc : (0x00000000#32 : BitVec 32) = FKind.add.neutral .f32 hφ) (l : Fin 512) :
    multiReduction (F := Ideal) .add [1] S512 x 0x00000000#32 h hφ hacc (ix1 l) = ∑ d : Fin 1024, x (ix2 l d) := by
  refine (Ideal.multiReduction_add_single x _ h hφ hacc (ix1 l)).trans ?_
  refine Finset.sum_congr rfl fun d _ => congrArg x ?_
  funext c
  refine Fin.ext ?_
  match c with
  | ⟨0, _⟩ => rfl
  | ⟨1, _⟩ => rfl

/-- The product's left operand index keeps the output row on its axis 0 … -/
theorem proj_lhs_0 (i : S512x64.Idx) (q : dot_S512x1024_S1024x64_S512x64_1_0_0_1_n_n.contr.Idx) :
    (dot_S512x1024_S1024x64_S512x64_1_0_0_1_n_n.lhsIdx i q 0).val = (i 0).val := by
  unfold DotDims.lhsIdx
  rw [dif_neg (show ¬(0 : Fin S512x1024.rank) ∈ dot_S512x1024_S1024x64_S512x64_1_0_0_1_n_n.lhsBatch by decide), dif_pos (show (0 : Fin S512x1024.rank) ∈ dot_S512x1024_S1024x64_S512x64_1_0_0_1_n_n.lhsNonContracting by decide)]
  rfl
/-- … and carries the contraction coordinate on its axis 1; -/
theorem proj_lhs_1 (i : S512x64.Idx) (q : dot_S512x1024_S1024x64_S512x64_1_0_0_1_n_n.contr.Idx) :
    (dot_S512x1024_S1024x64_S512x64_1_0_0_1_n_n.lhsIdx i q 1).val = (q ⟨0, by decide⟩).val :=
  dot_S512x1024_S1024x64_S512x64_1_0_0_1_n_n.lhsIdx_val_of_single rfl i q
/-- the right operand index carries the contraction coordinate on its axis 0 … -/
theorem proj_rhs_0 (i : S512x64.Idx) (q : dot_S512x1024_S1024x64_S512x64_1_0_0_1_n_n.contr.Idx) :
    (dot_S512x1024_S1024x64_S512x64_1_0_0_1_n_n.rhsIdx i q 0).val = (q ⟨0, by decide⟩).val :=
  dot_S512x1024_S1024x64_S512x64_1_0_0_1_n_n.rhsIdx_val_of_single rfl i q
/-- … and keeps the output column on its axis 1. -/
theorem proj_rhs_1 (i : S512x64.Idx) (q : dot_S512x1024_S1024x64_S512x64_1_0_0_1_n_n.contr.Idx) :
    (dot_S512x1024_S1024x64_S512x64_1_0_0_1_n_n.rhsIdx i q 1).val = (i 1).val := by
  unfold DotDims.rhsIdx
  rw [dif_neg (show ¬(1 : Fin S1024x64.rank) ∈ dot_S512x1024_S1024x64_S512x64_1_0_0_1_n_n.rhsBatch by decide), dif_pos (show (1 : Fin S1024x64.rank) ∈ dot_S512x1024_S1024x64_S512x64_1_0_0_1_n_n.rhsNonContracting by decide)]
  rfl

/-- The `[512, 1024] × [1024, 64]` product into the zero accumulator, read at `(l, e)`: the sum over the 1024 features of
    row `l` of the left operand times column `e` of the right one. -/
theorem proj_matmul_apply (A : FVec Ideal S512x1024 .bf16) (B : FVec Ideal S1024x64 .bf16) (l : Fin 512) (e : Fin 64) :
    matmul dot_S512x1024_S1024x64_S512x64_1_0_0_1_n_n none A B (constant (F := Ideal) S512x64 .f32 0x00000000#32) (ix2 l e)
      = ∑ d : Fin 1024, A (ix2 l d) * B (ix2 d e) := by
  simp only [matmul]
  rw [Ideal.matmul_constant_zero_apply, ← Equiv.sum_comp (contrEquiv1 dot_S512x1024_S1024x64_S512x64_1_0_0_1_n_n 1024 rfl rfl).symm]
  refine Finset.sum_congr rfl fun k _ => ?_
  have hk := contrEquiv1_symm_val dot_S512x1024_S1024x64_S512x64_1_0_0_1_n_n 1024 rfl rfl k
  have el : dot_S512x1024_S1024x64_S512x64_1_0_0_1_n_n.lhsIdx (ix2 l e) ((contrEquiv1 dot_S512x1024_S1024x64_S512x64_1_0_0_1_n_n 1024 rfl rfl).symm k) = ix2 l k := funext fun a => Fin.ext (by
    match a with
    | ⟨0, _⟩ => exact proj_lhs_0 _ _
    | ⟨1, _⟩ => exact (proj_lhs_1 _ _).trans hk)
  have er : dot_S512x1024_S1024x64_S512x64_1_0_0_1_n_n.rhsIdx (ix2 l e) ((contrEquiv1 dot_S512x1024_S1024x64_S512x64_1_0_0_1_n_n 1024 rfl rfl).symm k) = ix2 k e := funext fun a => Fin.ext (by
    match a with
    | ⟨0, _⟩ => exact (proj_rhs_0 _ _).trans hk
    | ⟨1, _⟩ => exact proj_rhs_1 _ _)
  rw [el, er]

/-! ## The body's values, one by one

Each definition below is one value of the printed body as a function of the loaded vectors (the names follow the
printed text's `%N`), and the lemma after it reads that value at coordinates as the matching function of `Spec`. -/

/-- `%1`: the loaded `[1, 512, 1024]` block with its unit axis dropped. -/
def proj_v1 (v0 : Vec Ideal S1x512x1024 .f32) : FVec Ideal S512x1024 .f32 :=
  shapeCast S512x1024 v0 shapeCasts_S1x512x1024_S512x1024

theorem proj_v1_apply (v0 : Vec Ideal S1x512x1024 .f32) (l : Fin 512) (d : Fin 1024) :
    proj_v1 v0 (ix2 l d) = v0 (ix3 (0 : Fin 1) l d) :=
  shapeCast_1ab_ab_apply v0 _ l d

/-- `%5`: the column of row means: each row's lane sum over the feature count. -/
def proj_v5 (v0 : Vec Ideal S1x512x1024 .f32) : FVec Ideal S512x1 .f32 :=
  divf (shapeCast S512x1 (multiReduction .add [1] S512 (proj_v1 v0) 0x00000000#32 reduces_S512x1024_S512 (.inl rfl) rfl)
      shapeCasts_S512_S512x1)
    (broadcast S512x1 (Scalar.ofBits .f32 0x44800000#32))

theorem proj_v5_apply (v0 : Vec Ideal S1x512x1024 .f32) (l : Fin 512) (u : Fin 1) :
    proj_v5 v0 (ix2 l u) = Cert.PairSpec.rowMean (fun d => v0 (ix3 (0 : Fin 1) l d)) := by
  unfold proj_v5 Cert.PairSpec.rowMean
  refine (divf_apply _ _ _).trans ?_
  refine congrArg (fun s => Ideal.div s Cert.PairSpec.nFeat) ?_
  refine (proj_shapeCast_a_a1_apply _ _ l u).trans ?_
  refine (proj_laneSum_apply _ _ _ _ l).trans ?_
  exact Finset.sum_congr rfl fun d _ => proj_v1_apply v0 l d

/-- `%7`: the block with each row's mean subtracted. -/
def proj_v7 (v0 : Vec Ideal S1x512x1024 .f32) : FVec Ideal S512x1024 .f32 :=
  subf (proj_v1 v0) (broadcastTo S512x1024 (proj_v5 v0) broadcasts_S512x1_S512x1024)

theorem proj_v7_apply (v0 : Vec Ideal S1x512x1024 .f32) (l : Fin 512) (d : Fin 1024) :
    proj_v7 v0 (ix2 l d) = Cert.PairSpec.rowCentred (fun d => v0 (ix3 (0 : Fin 1) l d)) d := by
  unfold proj_v7 Cert.PairSpec.rowCentred
  refine (subf_apply _ _ _).trans ?_
  rw [proj_v1_apply, proj_broadcastTo_a1_ab_apply, proj_v5_apply]

/-- `%12`: the column of row mean square deviations. -/
def proj_v12 (v0 : Vec Ideal S1x512x1024 .f32) : FVec Ideal S512x1 .f32 :=
  divf (shapeCast S512x1 (multiReduction .add [1] S512 (mulf (proj_v7 v0) (proj_v7 v0)) 0x00000000#32 reduces_S512x1024_S512 (.inl rfl) rfl)
      shapeCasts_S512_S512x1)
    (broadcast S512x1 (Scalar.ofBits .f32 0x44800000#32))

theorem proj_v12_apply (v0 : Vec Ideal S1x512x1024 .f32) (l : Fin 512) (u : Fin 1) :
    proj_v12 v0 (ix2 l u) = Cert.PairSpec.rowVar (fun d => v0 (ix3 (0 : Fin 1) l d)) := by
  unfold proj_v12 Cert.PairSpec.rowVar
  refine (divf_apply _ _ _).trans ?_
  refine congrArg (fun s => Ideal.div s Cert.PairSpec.nFeat) ?_
  refine (proj_shapeCast_a_a1_apply _ _ l u).trans ?_
  refine (proj_laneSum_apply _ _ _ _ l).trans ?_
  refine Finset.sum_congr rfl fun d _ => ?_
  refine (mulf_apply _ _ _).trans ?_
  rw [proj_v7_apply]

/-- `%15`: the column of reciprocal square roots of the deviation plus ε. -/
def proj_v15 (v0 : Vec Ideal S1x512x1024 .f32) : FVec Ideal S512x1 .f32 :=
  rsqrt (addf (proj_v12 v0) (broadcast S512x1 (Scalar.ofBits .f32 0x3727C5AC#32)))

theorem proj_v15_apply (v0 : Vec Ideal S1x512x1024 .f32) (l : Fin 512) (u : Fin 1) :
    proj_v15 v0 (ix2 l u)
      = Ideal.rsqrt (Cert.PairSpec.rowVar (fun d => v0 (ix3 (0 : Fin 1) l d)) + Cert.PairSpec.eps) := by
  unfold proj_v15
  show Ideal.rsqrt (proj_v12 v0 (ix2 l u) + Cert.PairSpec.eps) = _
  rw [proj_v12_apply]

/-- `%25`: the normalised block: centred, scaled by the column `%15`, then by γ, shifted by β (both as one row
    broadcast over the 512 rows). -/
def proj_v25 (v0 : Vec Ideal S1x512x1024 .f32) (v18 v22 : Vec Ideal S1024 .f32) : FVec Ideal S512x1024 .f32 :=
  addf
    (mulf (mulf (proj_v7 v0) (broadcastTo S512x1024 (proj_v15 v0) broadcasts_S512x1_S512x1024))
      (broadcastTo S512x1024 (shapeCast S1x1024 v18 shapeCasts_S1024_S1x1024) broadcasts_S1x1024_S512x1024))
    (broadcastTo S512x1024 (shapeCast S1x1024 v22 shapeCasts_S1024_S1x1024) broadcasts_S1x1024_S512x1024)

theorem proj_v25_apply (v0 : Vec Ideal S1x512x1024 .f32) (v18 v22 : Vec Ideal S1024 .f32) (l : Fin 512) (d : Fin 1024) :
    proj_v25 v0 v18 v22 (ix2 l d) = Cert.PairSpec.rowNormed (fun d => v0 (ix3 (0 : Fin 1) l d)) v18 v22 d := by
  unfold proj_v25 Cert.PairSpec.rowNormed
  refine (addf_apply _ _ _).trans ?_
  refine congrArg₂ (· + ·) ?_ ?_
  · refine (mulf_apply _ _ _).trans ?_
    refine congrArg₂ (· * ·) ?_ ?_
    · refine (mulf_apply _ _ _).trans ?_
      rw [proj_v7_apply, proj_broadcastTo_a1_ab_apply, proj_v15_apply]
    · rw [broadcastTo_1b_ab_apply, shapeCast_a_1a_apply]
  · rw [broadcastTo_1b_ab_apply, shapeCast_a_1a_apply]

/-- `%30`: the normalised block times the transposed projection matrix, into the zero accumulator. -/
def proj_v30 (v0 : Vec Ideal S1x512x1024 .f32) (v18 v22 : Vec Ideal S1024 .f32) (v27 : Vec Ideal S64x1024 .f32) :
    FVec Ideal S512x64 .f32 :=
  matmul dot_S512x1024_S1024x64_S512x64_1_0_0_1_n_n none
    (truncf .bf16 (proj_v25 v0 v18 v22) bitsLt_bf16_f32)
    (transpose S1024x64 [1, 0] (truncf .bf16 v27 bitsLt_bf16_f32) transposes_S64x1024_p1_0_S1024x64)
    (constant S512x64 .f32 0x00000000#32)

theorem proj_v30_apply (v0 : Vec Ideal S1x512x1024 .f32) (v18 v22 : Vec Ideal S1024 .f32) (v27 : Vec Ideal S64x1024 .f32)
    (l : Fin 512) (e : Fin 64) :
    proj_v30 v0 v18 v22 v27 (ix2 l e)
      = ∑ d : Fin 1024, Cert.PairSpec.rowNormed (fun d => v0 (ix3 (0 : Fin 1) l d)) v18 v22 d * v27 (ix2 e d) := by
  unfold proj_v30
  refine (proj_matmul_apply _ _ l e).trans ?_
  refine Finset.sum_congr rfl fun d _ => ?_
  refine congrArg₂ (· * ·) ?_ ?_
  · exact (truncf_apply (ψ := .bf16) (proj_v25 v0 v18 v22) bitsLt_bf16_f32 (ix2 l d)).trans (proj_v25_apply v0 v18 v22 l d)
  · refine (transpose_ix2_apply _ _ d e).trans ?_
    rfl

/-- The printed body's stored value is the product `%30` plus the bias row, with a unit axis put back. -/
theorem proj_pay_eq (v0 : Vec Ideal S1x512x1024 .f32) (v18 v22 : Vec Ideal S1024 .f32) (v27 : Vec Ideal S64x1024 .f32)
    (v31 : Vec Ideal S64 .f32) :
    k0_pay1 (F := Ideal) v0 v18 v22 v27 v31
      = shapeCast S1x512x64
          (addf (proj_v30 v0 v18 v22 v27)
            (broadcastTo S512x64 (shapeCast S1x64 v31 shapeCasts_S64_S1x64) broadcasts_S1x64_S512x64))
          shapeCasts_S512x64_S1x512x64 := rfl

/-- The stored block of the LayerNorm + projection body at row `l`, column `e`. -/
theorem k0_pay1_apply (v0 : Vec Ideal S1x512x1024 .f32) (v18 v22 : Vec Ideal S1024 .f32) (v27 : Vec Ideal S64x1024 .f32)
    (v31 : Vec Ideal S64 .f32) (l : Fin 512) (e : Fin 64) :
    k0_pay1 (F := Ideal) v0 v18 v22 v27 v31 (ix3 (0 : Fin 1) l e)
      = Cert.PairSpec.rowProj (fun d => v0 (ix3 (0 : Fin 1) l d)) v18 v22 v27 v31 e := by
  rw [proj_pay_eq]
  unfold Cert.PairSpec.rowProj
  refine (shapeCast_ab_1ab_apply _ _ (0 : Fin 1) l e).trans ?_
  refine (addf_apply _ _ _).trans ?_
  refine congrArg₂ (· + ·) (proj_v30_apply v0 v18 v22 v27 l e) ?_
  rw [broadcastTo_1b_ab_apply, shapeCast_a_1a_apply]

end Cert.KernelIdeal.HandValue

end
-- ==== Proof.KI.Value0.lean ====
/-
  Region 0's output array after its two grid points, at the exact instance: the projected sequence `PairSpec.qk`
  of the five argument arrays the region was entered with. Point `t` writes back rows `(t, ·, ·)`; the block it
  writes is the body's one store, whose payload at row `l`, column `e` is the normalised row times row `e` of the
  projection matrix plus the bias; the two blocks cover the array.
-/
import proofs.«170736_j32031866094096_1_alg».proof.Proof.Gen.KernelIdeal.Launch
import proofs.«170736_j32031866094096_1_alg».proof.Proof.Gen.KernelIdeal.Skeleton
import proofs.«170736_j32031866094096_1_alg».proof.Proof.Gen.KernelIdeal.Points
import proofs.«170736_j32031866094096_1_alg».proof.Proof.KI.Body0
import proofs.«170736_j32031866094096_1_alg».proof.Proof.KI.Pay0
import proofs.«170736_j32031866094096_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- Zero offsets, however many axes. -/
theorem ln_hz3 : (![0, 0, 0] : Fin 3 → Nat) = fun _ => 0 := funext fun a => by fin_cases a <;> rfl
theorem ln_hz2 : (![0, 0] : Fin 2 → Nat) = fun _ => 0 := funext fun a => by fin_cases a <;> rfl
theorem ln_hz1 : (![0] : Fin 1 → Nat) = fun _ => 0 := funext fun a => by fin_cases a <;> rfl

/-- The printed index maps, decided over the two grid points: at point `t` the sequence block and the output block
    sit at block index `(t, 0, 0)`; the scale, the shift, the projection matrix and its bias are whole-array blocks. -/
theorem ln_idx_facts0 : ∀ t : Fin cfg0.N,
    win0_5.index t (0 : Fin 3) = t.val ∧ win0_5.index t (1 : Fin 3) = 0 ∧ win0_5.index t (2 : Fin 3) = 0
    ∧ win0_0.index t (0 : Fin 3) = t.val ∧ win0_0.index t (1 : Fin 3) = 0 ∧ win0_0.index t (2 : Fin 3) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 1) = 0 ∧ t.val < 2 :=
  (by decide +kernel : ∀ t : Fin grid0.N, _)

/-- An index of the output block is a row and a column (its leading coordinate is 0). -/
theorem ln_exists_row_col (y : S1x512x64.Idx) : ∃ (l : Fin 512) (e : Fin 64), y = ix3 (0 : Fin 1) l e :=
  ⟨y 1, y 2, funext fun a => match a with
    | ⟨0, _⟩ => Fin.ext (by have h : (y 0).val < 1 := (y 0).isLt; show (y 0).val = 0; omega)
    | ⟨1, _⟩ => rfl
    | ⟨2, _⟩ => rfl⟩

/-- One stored entry against the projected sequence: if the loaded sequence block is batch entry `T` of `X` and the
    other four blocks are the whole arrays, the stored block at row `l`, column `e` is `qk` at `(T, l, e)`. -/
theorem ln_stored_eq_qk (x0 : Vec Ideal S1x512x1024 .f32) (x1 x2 : Vec Ideal S1024 .f32) (x3 : Vec Ideal S64x1024 .f32)
    (x4 : Vec Ideal S64 .f32) (X : S2x512x1024.Idx → EReal) (g bt : S1024.Idx → EReal) (wp : S64x1024.Idx → EReal)
    (bp : S64.Idx → EReal) (T : Fin 2)
    (h0 : ∀ (l : Fin 512) (d : Fin 1024), x0 (ix3 (0 : Fin 1) l d) = X (ix3 T l d))
    (h1 : x1 = g) (h2 : x2 = bt) (h3 : x3 = wp) (h4 : x4 = bp)
    (l : Fin 512) (e : Fin 64) (i : S2x512x64.Idx)
    (hi0 : (i 0).val = T.val) (hi1 : (i 1).val = l.val) (hi2 : (i 2).val = e.val) :
    k0_pay1 (F := Ideal) x0 x1 x2 x3 x4 (ix3 (0 : Fin 1) l e) = Cert.PairSpec.qk X g bt wp bp i := by
  subst h1 h2 h3 h4
  have hi : i = ix3 T l e := by
    funext a
    match a with
    | ⟨0, _⟩ => exact Fin.ext hi0
    | ⟨1, _⟩ => exact Fin.ext hi1
    | ⟨2, _⟩ => exact Fin.ext hi2
  rw [hi, k0_pay1_apply]
  show Cert.PairSpec.rowProj (fun d => x0 (ix3 (0 : Fin 1) l d)) x1 x2 x3 x4 e
    = Cert.PairSpec.rowProj (fun d => X (ix3 T l d)) x1 x2 x3 x4 e
  rw [show (fun d => x0 (ix3 (0 : Fin 1) l d)) = fun d => X (ix3 T l d) from funext fun d => h0 l d]

/-- The sequence block at point `t` is batch entry `t` of the sequence. -/
theorem ln_blk_x_apply (c : Dev nD) (t : Fin cfg0.N) (T : Fin 2) (hT : T.val = t.val) (l : Fin 512) (d : Fin 1024) :
    (iblk0 V c 0 t : Vec Ideal S1x512x1024 .f32) (ix3 (0 : Fin 1) l d)
      = (V c main_arg0 : S2x512x1024.Idx → EReal) (ix3 T l d) := by
  obtain ⟨-, -, -, e0, e1, e2, -⟩ := ln_idx_facts0 t
  unfold iblk0
  rw [View.read_apply]
  show V c main_arg0 _ = V c main_arg0 _
  congr 1
  funext a
  apply Fin.ext
  match a with
  | ⟨0, _⟩ => show win0_0.index t (0 : Fin 3) * 1 + 1 * (0 : Fin 1).val = T.val; rw [e0, hT]; simp
  | ⟨1, _⟩ => show win0_0.index t (1 : Fin 3) * 512 + 1 * l.val = l.val; omega
  | ⟨2, _⟩ => show win0_0.index t (2 : Fin 3) * 1024 + 1 * d.val = d.val; omega

/-- The scale's block at every point is the whole scale. -/
theorem ln_blk_g_eq (c : Dev nD) (t : Fin cfg0.N) :
    (iblk0 V c 1 t : Vec Ideal S1024 .f32) = (V c main_arg1 : S1024.Idx → EReal) := by
  obtain ⟨-, -, -, -, -, -, e0, -⟩ := ln_idx_facts0 t
  funext x
  unfold iblk0
  rw [View.read_apply]
  show V c main_arg1 _ = V c main_arg1 _
  congr 1
  funext a
  apply Fin.ext
  match a with
  | ⟨0, _⟩ => show win0_1.index t (0 : Fin 1) * 1024 + 1 * (x 0).val = (x 0).val; omega

/-- The shift's block at every point is the whole shift. -/
theorem ln_blk_b_eq (c : Dev nD) (t : Fin cfg0.N) :
    (iblk0 V c 2 t : Vec Ideal S1024 .f32) = (V c main_arg2 : S1024.Idx → EReal) := by
  obtain ⟨-, -, -, -, -, -, -, e0, -⟩ := ln_idx_facts0 t
  funext x
  unfold iblk0
  rw [View.read_apply]
  show V c main_arg2 _ = V c main_arg2 _
  congr 1
  funext a
  apply Fin.ext
  match a with
  | ⟨0, _⟩ => show win0_2.index t (0 : Fin 1) * 1024 + 1 * (x 0).val = (x 0).val; omega

/-- The projection matrix's block at every point is the whole matrix. -/
theorem ln_blk_w_eq (c : Dev nD) (t : Fin cfg0.N) :
    (iblk0 V c 3 t : Vec Ideal S64x1024 .f32) = (V c main_arg3 : S64x1024.Idx → EReal) := by
  obtain ⟨-, -, -, -, -, -, -, -, e0, e1, -⟩ := ln_idx_facts0 t
  funext x
  unfold iblk0
  rw [View.read_apply]
  show V c main_arg3 _ = V c main_arg3 _
  congr 1
  funext a
  apply Fin.ext
  match a with
  | ⟨0, _⟩ => show win0_3.index t (0 : Fin 2) * 64 + 1 * (x 0).val = (x 0).val; omega
  | ⟨1, _⟩ => show win0_3.index t (1 : Fin 2) * 1024 + 1 * (x 1).val = (x 1).val; omega

/-- The projection bias's block at every point is the whole bias. -/
theorem ln_blk_bp_eq (c : Dev nD) (t : Fin cfg0.N) :
    (iblk0 V c 4 t : Vec Ideal S64 .f32) = (V c main_arg4 : S64.Idx → EReal) := by
  obtain ⟨-, -, -, -, -, -, -, -, -, -, e0, -⟩ := ln_idx_facts0 t
  funext x
  unfold iblk0
  rw [View.read_apply]
  show V c main_arg4 _ = V c main_arg4 _
  congr 1
  funext a
  apply Fin.ext
  match a with
  | ⟨0, _⟩ => show win0_4.index t (0 : Fin 1) * 64 + 1 * (x 0).val = (x 0).val; omega

/-- WHAT POINT `t` WRITES BACK is block `t` of the projected sequence of the argument arrays. -/
theorem ln_flushed_eq (c : Dev nD) (t : Fin cfg0.N) :
    (dat0 (F := Ideal) V c).flushed 5 t = ((cfg0.win 5).blk t).view.read (Elt Ideal)
      (Cert.PairSpec.qk (V c main_arg0) (V c main_arg1) (V c main_arg2) (V c main_arg3) (V c main_arg4)) := by
  show (cfg0.win 5).cut (grid0.coords t) ((dat0 V c).after 5 t) = _
  rw [after0_5]
  unfold out0_5
  rw [View.canon_unit_zero ln_hz3]
  simp only [View.ld_unit_zero (S := S1x512x1024) ln_hz3, View.ld_unit_zero (S := S1024) ln_hz1, View.ld_unit_zero (S := S64x1024) ln_hz2, View.ld_unit_zero (S := S64) ln_hz1]
  obtain ⟨e0, e1, e2, -, -, -, -, -, -, -, -, ht⟩ := ln_idx_facts0 t
  funext y
  obtain ⟨l, e, rfl⟩ := ln_exists_row_col y
  show k0_pay1 (F := Ideal) (iblk0 V c 0 t) (iblk0 V c 1 t) (iblk0 V c 2 t) (iblk0 V c 3 t) (iblk0 V c 4 t) (ix3 (0 : Fin 1) l e)
    = Cert.PairSpec.qk (V c main_arg0) (V c main_arg1) (V c main_arg2) (V c main_arg3) (V c main_arg4)
        (((cfg0.win 5).blk t).view.emb (ix3 (0 : Fin 1) l e))
  refine ln_stored_eq_qk (iblk0 V c 0 t) (iblk0 V c 1 t) (iblk0 V c 2 t) (iblk0 V c 3 t) (iblk0 V c 4 t)
    (V c main_arg0) (V c main_arg1) (V c main_arg2) (V c main_arg3) (V c main_arg4) ⟨t.val, ht⟩
    (ln_blk_x_apply V c t ⟨t.val, ht⟩ rfl) (ln_blk_g_eq V c t) (ln_blk_b_eq V c t) (ln_blk_w_eq V c t) (ln_blk_bp_eq V c t) l e _ ?_ ?_ ?_
  · show win0_5.index t (0 : Fin 3) * 1 + 1 * (0 : Fin 1).val = t.val; rw [e0]; simp
  · show win0_5.index t (1 : Fin 3) * 512 + 1 * l.val = l.val; omega
  · show win0_5.index t (2 : Fin 3) * 64 + 1 * e.val = e.val; omega

/-- An index of the array is in point `t`'s block iff each coordinate is in the block's range on its axis. -/
theorem ln_mem_blk (t : Fin cfg0.N) (i : S2x512x64.Idx) :
    i ∈ ((cfg0.win 5).blk t).view.set ↔ ∀ a : Fin 3, win0_5.index t a * S1x512x64.size a ≤ (i a).val ∧ (i a).val < win0_5.index t a * S1x512x64.size a + S1x512x64.size a := by
  show i ∈ ((View.whole main_v0).slice (win0_5.rect t)).set ↔ _
  rw [View.set_slice_whole, Rect.mem_set_unit]
  exact Iff.rfl

/-- Every index of the array is in some point's block: batch entry `b` is point `b`'s. -/
theorem ln_covered (i : S2x512x64.Idx) :
    ∃ t : Fin cfg0.N, (cfg0.win 5).flush t = true ∧ i ∈ ((cfg0.win 5).blk t).view.set := by
  have h0 : (i 0).val < 2 := (i 0).isLt
  have h1 : (i 1).val < 512 := (i 1).isLt
  have h2 : (i 2).val < 64 := (i 2).isLt
  have hN : cfg0.N = 2 := N_0
  obtain ⟨t, ht⟩ : ∃ t : Fin cfg0.N, t.val = (i 0).val := ⟨⟨(i 0).val, by omega⟩, rfl⟩
  obtain ⟨e0, e1, e2, -⟩ := ln_idx_facts0 t
  refine ⟨t, flush0_5 t, ?_⟩
  rw [ln_mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 64 ≤ (i 2).val ∧ (i 2).val < win0_5.index t (2 : Fin 3) * 64 + 64; omega

/-- The projected sequence as region 0 leaves it. -/
theorem arr0_eq (c : Dev nD) :
    ((dat0 (F := Ideal) V c).arrAt 5 cfg0.N : S2x512x64.Idx → EReal)
      = Cert.PairSpec.qk (V c main_arg0) (V c main_arg1) (V c main_arg2) (V c main_arg3) (V c main_arg4) :=
  (dat0 (F := Ideal) V c).arrAt_eq_of_cover 5
    (Cert.PairSpec.qk (V c main_arg0) (V c main_arg1) (V c main_arg2) (V c main_arg3) (V c main_arg4))
    (fun t _ => ln_flushed_eq V c t) ln_covered

end Cert.KernelIdeal.HandValue

end
-- ==== Proof.KI.Pay1.lean ====
/-
  The pairwise body's one stored value, read at an index at the exact instance: entry `(ii, jj, p)` of the stored
  block is `PairSpec.pairAt` of row `jj` of the loaded q block and row `ii` of the loaded k block — the two matrix
  products into zero accumulators are 32-term sums over the inner channels against the two halves of the output
  matrix's row `p` (the body's product is `k · q`, the specification's `q · k`), the 64×128 rows of the products and
  differences being laid out row-major as 8192 rows, and every change of float format is the identity.
-/
import proofs.«170736_j32031866094096_1_alg».proof.Proof.Gen.KernelIdeal.Skeleton
import proofs.«170736_j32031866094096_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.ShloMosaic.ValueIdx

/-! ## Layout operations of the pairwise body read at coordinates -/

section Layout
variable {α : Type}

/-- Row `ii·128 + jj` of the 8192 rows a `[64, 128, ·]` array has when laid out row-major. -/
abbrev flatRow (ii : Fin 64) (jj : Fin 128) : Fin 8192 := ⟨ii.val * 128 + jj.val, by omega⟩

/-- A `[64, 128, c]` array viewed as `[8192, c]` reads, at row `ii·128 + jj`, the operand at `(ii, jj)`. -/
theorem shapeCast_flatten_apply {c : ℕ} (x : (⟨3, ![64, 128, c]⟩ : Shape).Idx → α)
    (h : (⟨3, ![64, 128, c]⟩ : Shape).ShapeCasts ⟨2, ![8192, c]⟩) (ii : Fin 64) (jj : Fin 128) (e : Fin c) :
    shapeCast ⟨2, ![8192, c]⟩ x h (ix2 (flatRow ii jj) e) = x (ix3 ii jj e) :=
  shapeCast_apply x h _ _ (by
    rw [Shape.rowMajor_val_three, Shape.rowMajor_val_two]
    show (ii.val * 128 + jj.val) * c + e.val = (ii.val * 128 + jj.val) * c + e.val
    rfl)

/-- An `[8192, c]` array viewed as `[64, 128, c]` reads, at `(ii, jj)`, the operand at row `ii·128 + jj`. -/
theorem shapeCast_unflatten_apply {c : ℕ} (x : (⟨2, ![8192, c]⟩ : Shape).Idx → α)
    (h : (⟨2, ![8192, c]⟩ : Shape).ShapeCasts ⟨3, ![64, 128, c]⟩) (ii : Fin 64) (jj : Fin 128) (e : Fin c) :
    shapeCast ⟨3, ![64, 128, c]⟩ x h (ix3 ii jj e) = x (ix2 (flatRow ii jj) e) :=
  shapeCast_apply x h _ _ (by
    rw [Shape.rowMajor_val_three, Shape.rowMajor_val_two]
    show (ii.val * 128 + jj.val) * c + e.val = (ii.val * 128 + jj.val) * c + e.val
    rfl)

/-- An `[a, b]` array viewed as `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a]` array viewed as `[1, 1, a]` reads, at `(u, u', i)`, the operand at `i`. -/
theorem shapeCast_a_11a_apply {a : ℕ} (x : (⟨1, ![a]⟩ : Shape).Idx → α)
    (h : (⟨1, ![a]⟩ : Shape).ShapeCasts ⟨3, ![1, 1, a]⟩) (u u' : Fin 1) (i : Fin a) :
    shapeCast ⟨3, ![1, 1, a]⟩ x h (ix3 u u' i) = x (ix1 i) :=
  shapeCast_apply x h _ _ (by
    have hu : u.val = 0 := by omega
    have hu' : u'.val = 0 := by omega
    rw [Shape.rowMajor_val_three, Shape.rowMajor_val_one]
    show i.val = (u.val * 1 + u'.val) * a + i.val
    rw [hu, hu', Nat.zero_mul, Nat.zero_add])

/-- The k rows `[64, 1, 32]` repeated along the 128 axis: `(ii, jj, e)` reads `(ii, 0, e)`. -/
theorem broadcastTo_krows_apply (x : S64x1x32.Idx → α) (h : S64x1x32.Broadcasts S64x128x32)
    (ii : Fin 64) (jj : Fin 128) (e : Fin 32) :
    broadcastTo S64x128x32 x h (ix3 ii jj e) = x (ix3 ii (0 : Fin 1) e) :=
  broadcastTo_apply x h _ _ fun a => match a with
    | ⟨0, _⟩ => by show ii.val = if (64 : Nat) = 1 then 0 else ii.val; rw [if_neg (by decide)]
    | ⟨1, _⟩ => by show 0 = if (1 : Nat) = 1 then 0 else jj.val; rw [if_pos rfl]
    | ⟨2, _⟩ => by show e.val = if (32 : Nat) = 1 then 0 else e.val; rw [if_neg (by decide)]

/-- The q rows `[1, 128, 32]` repeated along the 64 axis: `(ii, jj, e)` reads `(0, jj, e)`. -/
theorem broadcastTo_qrows_apply (x : S1x128x32.Idx → α) (h : S1x128x32.Broadcasts S64x128x32)
    (ii : Fin 64) (jj : Fin 128) (e : Fin 32) :
    broadcastTo S64x128x32 x h (ix3 ii jj e) = x (ix3 (0 : Fin 1) jj e) :=
  broadcastTo_apply x h _ _ fun a => match a with
    | ⟨0, _⟩ => by show 0 = if (1 : Nat) = 1 then 0 else ii.val; rw [if_pos rfl]
    | ⟨1, _⟩ => by show jj.val = if (128 : Nat) = 1 then 0 else jj.val; rw [if_neg (by decide)]
    | ⟨2, _⟩ => by show e.val = if (32 : Nat) = 1 then 0 else e.val; rw [if_neg (by decide)]

/-- The bias `[1, 1, 128]` repeated along both leading axes: `(ii, jj, p)` reads `(0, 0, p)`. -/
theorem broadcastTo_bias_apply (x : S1x1x128.Idx → α) (h : S1x1x128.Broadcasts S64x128x128)
    (ii : Fin 64) (jj : Fin 128) (p : Fin 128) :
    broadcastTo S64x128x128 x h (ix3 ii jj p) = x (ix3 (0 : Fin 1) (0 : Fin 1) p) :=
  broadcastTo_apply x h _ _ fun a => match a with
    | ⟨0, _⟩ => by show 0 = if (1 : Nat) = 1 then 0 else ii.val; rw [if_pos rfl]
    | ⟨1, _⟩ => by show 0 = if (1 : Nat) = 1 then 0 else jj.val; rw [if_pos rfl]
    | ⟨2, _⟩ => by show p.val = if (128 : Nat) = 1 then 0 else p.val; rw [if_neg (by decide)]

/-- Columns 0..31 of the output matrix: `(p, e)` reads `(p, e)`. -/
theorem slice_lo_apply (x : S128x64.Idx → α) (h : S128x64.Slices ![0, 0] S128x32) (p : Fin 128) (e : Fin 32) :
    extractStridedSlice S128x32 ![0, 0] x h (ix2 p e) = x (ix2 p (Cert.PairSpec.lo e)) :=
  extractStridedSlice_apply _ x h _ _ fun a => match a with
    | ⟨0, _⟩ => by show p.val = 0 + p.val; omega
    | ⟨1, _⟩ => by show e.val = 0 + e.val; omega

/-- Columns 32..63 of the output matrix: `(p, e)` reads `(p, e + 32)`. -/
theorem slice_hi_apply (x : S128x64.Idx → α) (h : S128x64.Slices ![0, 32] S128x32) (p : Fin 128) (e : Fin 32) :
    extractStridedSlice S128x32 ![0, 32] x h (ix2 p e) = x (ix2 p (Cert.PairSpec.hi e)) :=
  extractStridedSlice_apply _ x h _ _ fun a => match a with
    | ⟨0, _⟩ => by show p.val = 0 + p.val; omega
    | ⟨1, _⟩ => by show e.val + 32 = 32 + e.val; omega

end Layout

/-! ## The two matrix products: `[8192, 32] × [32, 128]` into a zero accumulator -/

/-- The left operand's row is the result's row. -/
theorem lhs_pair_0 (i : S8192x128.Idx) (q : dot_S8192x32_S32x128_S8192x128_1_0_0_1_n_n.contr.Idx) :
    (dot_S8192x32_S32x128_S8192x128_1_0_0_1_n_n.lhsIdx i q 0).val = (i 0).val := by
  unfold DotDims.lhsIdx
  rw [dif_neg (show ¬(0 : Fin S8192x32.rank) ∈ dot_S8192x32_S32x128_S8192x128_1_0_0_1_n_n.lhsBatch by decide), dif_pos (show (0 : Fin S8192x32.rank) ∈ dot_S8192x32_S32x128_S8192x128_1_0_0_1_n_n.lhsNonContracting by decide)]
  rfl
/-- The left operand's column is the contraction position. -/
theorem lhs_pair_1 (i : S8192x128.Idx) (q : dot_S8192x32_S32x128_S8192x128_1_0_0_1_n_n.contr.Idx) :
    (dot_S8192x32_S32x128_S8192x128_1_0_0_1_n_n.lhsIdx i q 1).val = (q ⟨0, by decide⟩).val :=
  dot_S8192x32_S32x128_S8192x128_1_0_0_1_n_n.lhsIdx_val_of_single rfl i q
/-- The right operand's row is the contraction position. -/
theorem rhs_pair_0 (i : S8192x128.Idx) (q : dot_S8192x32_S32x128_S8192x128_1_0_0_1_n_n.contr.Idx) :
    (dot_S8192x32_S32x128_S8192x128_1_0_0_1_n_n.rhsIdx i q 0).val = (q ⟨0, by decide⟩).val :=
  dot_S8192x32_S32x128_S8192x128_1_0_0_1_n_n.rhsIdx_val_of_single rfl i q
/-- The right operand's column is the result's column. -/
theorem rhs_pair_1 (i : S8192x128.Idx) (q : dot_S8192x32_S32x128_S8192x128_1_0_0_1_n_n.contr.Idx) :
    (dot_S8192x32_S32x128_S8192x128_1_0_0_1_n_n.rhsIdx i q 1).val = (i 1).val := by
  unfold DotDims.rhsIdx
  rw [dif_neg (show ¬(1 : Fin S32x128.rank) ∈ dot_S8192x32_S32x128_S8192x128_1_0_0_1_n_n.rhsBatch by decide), dif_pos (show (1 : Fin S32x128.rank) ∈ dot_S8192x32_S32x128_S8192x128_1_0_0_1_n_n.rhsNonContracting by decide)]
  rfl

/-- Either product read at row `r`, column `p`: the 32-term sum of row `r` of the left operand against column `p`
    of the right one. -/
theorem pair_matmul_apply (a : FVec Ideal S8192x32 .bf16) (b : FVec Ideal S32x128 .bf16) (r : Fin 8192) (p : Fin 128) :
    matmul (F := Ideal) dot_S8192x32_S32x128_S8192x128_1_0_0_1_n_n none a b (constant (F := Ideal) S8192x128 .f32 0x00000000#32) (ix2 r p)
      = ∑ e : Fin 32, a (ix2 r e) * b (ix2 e p) := by
  simp only [matmul]
  rw [Ideal.matmul_constant_zero_apply, ← Equiv.sum_comp (ValueIdx.contrEquiv1 dot_S8192x32_S32x128_S8192x128_1_0_0_1_n_n 32 rfl rfl).symm]
  refine Finset.sum_congr rfl fun k _ => ?_
  have hk := ValueIdx.contrEquiv1_symm_val dot_S8192x32_S32x128_S8192x128_1_0_0_1_n_n 32 rfl rfl k
  have el : dot_S8192x32_S32x128_S8192x128_1_0_0_1_n_n.lhsIdx (ix2 r p) ((ValueIdx.contrEquiv1 dot_S8192x32_S32x128_S8192x128_1_0_0_1_n_n 32 rfl rfl).symm k) = ix2 r k := funext fun a => Fin.ext (by
    match a with
    | ⟨0, _⟩ => exact lhs_pair_0 _ _
    | ⟨1, _⟩ => exact (lhs_pair_1 _ _).trans hk)
  have er : dot_S8192x32_S32x128_S8192x128_1_0_0_1_n_n.rhsIdx (ix2 r p) ((ValueIdx.contrEquiv1 dot_S8192x32_S32x128_S8192x128_1_0_0_1_n_n 32 rfl rfl).symm k) = ix2 k p := funext fun a => Fin.ext (by
    match a with
    | ⟨0, _⟩ => exact (rhs_pair_0 _ _).trans hk
    | ⟨1, _⟩ => exact rhs_pair_1 _ _)
  rw [el, er]

/-- The stored block of the pairwise body at `(ii, jj, p)`. -/
theorem k1_pay1_apply (v0 : Vec Ideal S1x128x32 .f32) (v2 : Vec Ideal S1x64x32 .f32) (v14 : Vec Ideal S128x64 .f32)
    (v27 : Vec Ideal S128 .f32) (ii : Fin 64) (jj : Fin 128) (p : Fin 128) :
    k1_pay1 (F := Ideal) v0 v2 v14 v27 (ix4 (0 : Fin 1) ii jj p)
      = Cert.PairSpec.pairAt (fun e => v0 (ix3 (0 : Fin 1) jj e)) (fun e => v2 (ix3 (0 : Fin 1) ii e)) v14 v27 p := by
  unfold k1_pay1 Cert.PairSpec.pairAt
  -- the leading unit axis, then the bias added to the sum of the two products
  refine (shapeCast_abc_1abc_apply _ _ (0 : Fin 1) ii jj p).trans ?_
  refine (addf_apply _ _ _).trans ?_
  refine congrArg₂ (· + ·) ?_ ?_
  · -- entry `(ii, jj, p)` of the sum of the products is its row `ii·128 + jj`, column `p`
    refine (shapeCast_unflatten_apply _ _ ii jj p).trans ?_
    refine (addf_apply _ _ _).trans ?_
    refine congrArg₂ (· + ·) ?_ ?_
    · -- the product `k · q` against columns 0..31 of row `p` of the output matrix
      refine (pair_matmul_apply _ _ _ _).trans ?_
      refine Finset.sum_congr rfl fun e _ => ?_
      refine congrArg₂ (· * ·) ?_ ?_
      · refine (shapeCast_flatten_apply _ _ ii jj e).trans ?_
        refine (truncf_apply (ψ := .bf16) _ bitsLt_bf16_f32 _).trans ?_
        refine (mulf_apply _ _ _).trans ?_
        refine (mul_comm _ _).trans ?_
        refine congrArg₂ (· * ·) ?_ ?_
        · refine (broadcastTo_qrows_apply _ _ ii jj e).trans ?_
          refine (shapeCast_ab_1ab_apply _ _ (0 : Fin 1) jj e).trans ?_
          exact shapeCast_1ab_ab_apply _ _ jj e
        · refine (broadcastTo_krows_apply _ _ ii jj e).trans ?_
          refine (shapeCast_ab_a1b_apply _ _ ii (0 : Fin 1) e).trans ?_
          exact shapeCast_1ab_ab_apply _ _ ii e
      · refine (transpose_ix2_apply _ _ e p).trans ?_
        refine (truncf_apply (ψ := .bf16) _ bitsLt_bf16_f32 _).trans ?_
        exact slice_lo_apply _ _ p e
    · -- the difference `q − k` against columns 32..63 of row `p` of the output matrix
      refine (pair_matmul_apply _ _ _ _).trans ?_
      refine Finset.sum_congr rfl fun e _ => ?_
      refine congrArg₂ (· * ·) ?_ ?_
      · refine (shapeCast_flatten_apply _ _ ii jj e).trans ?_
        refine (truncf_apply (ψ := .bf16) _ bitsLt_bf16_f32 _).trans ?_
        refine (subf_apply _ _ _).trans ?_
        refine congrArg₂ (· - ·) ?_ ?_
        · refine (broadcastTo_qrows_apply _ _ ii jj e).trans ?_
          refine (shapeCast_ab_1ab_apply _ _ (0 : Fin 1) jj e).trans ?_
          exact shapeCast_1ab_ab_apply _ _ jj e
        · refine (broadcastTo_krows_apply _ _ ii jj e).trans ?_
          refine (shapeCast_ab_a1b_apply _ _ ii (0 : Fin 1) e).trans ?_
          exact shapeCast_1ab_ab_apply _ _ ii e
      · refine (transpose_ix2_apply _ _ e p).trans ?_
        refine (truncf_apply (ψ := .bf16) _ bitsLt_bf16_f32 _).trans ?_
        exact slice_hi_apply _ _ p e
  · -- the bias, repeated along both leading axes
    refine (broadcastTo_bias_apply _ _ ii jj p).trans ?_
    exact shapeCast_a_11a_apply _ _ (0 : Fin 1) (0 : Fin 1) p

end Cert.KernelIdeal.HandValue

end
-- ==== Proof.KI.Value1.lean ====
/-
  Region 1's output array after its 64 grid points, at the exact instance: the pairwise output `PairSpec.pair` of
  the projected sequence and the two output parameters the region was entered with. Point `(b, i, j)` writes back
  the block of rows `64 i ..` of the first pair axis and rows `128 j ..` of the second; the block is the body's one
  store, whose payload is the two 32-term contractions (products, differences) plus the bias; the blocks cover the
  array.
-/
import proofs.«170736_j32031866094096_1_alg».proof.Proof.Gen.KernelIdeal.Launch
import proofs.«170736_j32031866094096_1_alg».proof.Proof.Gen.KernelIdeal.Skeleton
import proofs.«170736_j32031866094096_1_alg».proof.Proof.Gen.KernelIdeal.Points
import proofs.«170736_j32031866094096_1_alg».proof.Proof.KI.Body1
import proofs.«170736_j32031866094096_1_alg».proof.Proof.KI.Pay1
import proofs.«170736_j32031866094096_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- Zero offsets on every axis, at ranks four, two and one. -/
theorem pr_zeros4 : (![0, 0, 0, 0] : Fin 4 → Nat) = fun _ => 0 := funext fun a => by fin_cases a <;> rfl
theorem pr_zeros2 : (![0, 0] : Fin 2 → Nat) = fun _ => 0 := funext fun a => by fin_cases a <;> rfl
theorem pr_zeros1 : (![0] : Fin 1 → Nat) = fun _ => 0 := funext fun a => by fin_cases a <;> rfl

/-- The printed index maps, decided over the grid: the output's block index is the point's coordinates; the q
    window moves with the output's second pair axis, the k window with its first, both with the batch axis; the
    two parameter windows stay at block zero. -/
theorem pr_index_facts : ∀ t : Fin cfg1.N,
    win1_0.index t (0 : Fin 3) = win1_4.index t (0 : Fin 4)
    ∧ win1_0.index t (1 : Fin 3) = win1_4.index t (2 : Fin 4)
    ∧ win1_0.index t (2 : Fin 3) = 0
    ∧ win1_1.index t (0 : Fin 3) = win1_4.index t (0 : Fin 4)
    ∧ win1_1.index t (1 : Fin 3) = win1_4.index t (1 : Fin 4)
    ∧ win1_1.index t (2 : Fin 3) = 0
    ∧ win1_2.index t (0 : Fin 2) = 0 ∧ win1_2.index t (1 : Fin 2) = 0
    ∧ win1_3.index t (0 : Fin 1) = 0
    ∧ win1_4.index t (0 : Fin 4) ≤ 1 ∧ win1_4.index t (1 : Fin 4) ≤ 7
    ∧ win1_4.index t (2 : Fin 4) ≤ 3 ∧ win1_4.index t (3 : Fin 4) = 0 :=
  (by decide +kernel : ∀ t : Fin grid1.N, _)

/-- Every block of the output array is some point's. -/
theorem pr_index_onto : ∀ (q0 : Fin 2) (q1 : Fin 8) (q2 : Fin 4), ∃ t : Fin cfg1.N, win1_4.index t = ![q0.val, q1.val, q2.val, 0] :=
  (by decide +kernel : ∀ (q0 : Fin 2) (q1 : Fin 8) (q2 : Fin 4), ∃ t : Fin grid1.N, win1_4.index t = ![q0.val, q1.val, q2.val, 0])

/-- An index of the output block by its coordinates. -/
theorem pr_exists_ix4 (y : S1x64x128x128.Idx) : ∃ (ii : Fin 64) (jj : Fin 128) (p : Fin 128), y = ix4 (0 : Fin 1) ii jj p :=
  ⟨y 1, y 2, y 3, by
    funext a
    match a with
    | ⟨0, _⟩ => exact Fin.ext (by have h : (y 0).val < 1 := (y 0).isLt; show (y 0).val = 0; omega)
    | ⟨1, _⟩ => rfl
    | ⟨2, _⟩ => rfl
    | ⟨3, _⟩ => rfl⟩

/-- The q rectangle reads the first 32 columns of a row of the 128-row block. -/
theorem pr_ld_q_apply (x0 : Vec Ideal S1x128x64 .f32) (jj : Fin 128) (e : Fin 32) :
    View.ld x0 r1_q (ix3 (0 : Fin 1) jj e) = x0 (ix3 (0 : Fin 1) jj (Cert.PairSpec.lo e)) := by
  show x0 _ = x0 _
  congr 1
  funext a
  apply Fin.ext
  match a with
  | ⟨0, _⟩ => rfl
  | ⟨1, _⟩ => show 0 + 1 * jj.val = jj.val; omega
  | ⟨2, _⟩ => show 0 + 1 * e.val = e.val; omega

/-- The k rectangle reads the last 32 columns of a row of the 64-row block. -/
theorem pr_ld_k_apply (x1 : Vec Ideal S1x64x64 .f32) (ii : Fin 64) (e : Fin 32) :
    View.ld x1 r1_k (ix3 (0 : Fin 1) ii e) = x1 (ix3 (0 : Fin 1) ii (Cert.PairSpec.hi e)) := by
  show x1 _ = x1 _
  congr 1
  funext a
  apply Fin.ext
  match a with
  | ⟨0, _⟩ => rfl
  | ⟨1, _⟩ => show 0 + 1 * ii.val = ii.val; omega
  | ⟨2, _⟩ => show 32 + 1 * e.val = e.val + 32; omega

/-- One entry of the stored block, from blocks that are the rows the entry's array index names. -/
theorem pr_stored_apply (x0 : Vec Ideal S1x128x64 .f32) (x1 : Vec Ideal S1x64x64 .f32) (x2 : Vec Ideal S128x64 .f32) (x3 : Vec Ideal S128 .f32)
    (s : S2x512x64.Idx → EReal) (wo : S128x64.Idx → EReal) (bo : S128.Idx → EReal)
    (b : Fin 2) (I J : Fin 512) (ii : Fin 64) (jj p : Fin 128)
    (hq : ∀ e : Fin 32, x0 (ix3 (0 : Fin 1) jj (Cert.PairSpec.lo e)) = s (ix3 b J (Cert.PairSpec.lo e)))
    (hk : ∀ e : Fin 32, x1 (ix3 (0 : Fin 1) ii (Cert.PairSpec.hi e)) = s (ix3 b I (Cert.PairSpec.hi e)))
    (hw : x2 = wo) (hb : x3 = bo) :
    k1_pay1 (F := Ideal) (View.ld x0 r1_q) (View.ld x1 r1_k) (View.ld x2 r1_w) (View.ld x3 r1_b) (ix4 (0 : Fin 1) ii jj p)
      = Cert.PairSpec.pair s wo bo (ix4 b I J p) := by
  rw [k1_pay1_apply, View.ld_unit_zero (S := S128x64) pr_zeros2, View.ld_unit_zero (S := S128) pr_zeros1, hw, hb]
  show Cert.PairSpec.pairAt _ _ wo bo p = Cert.PairSpec.pairAt _ _ wo bo p
  congr 1
  · funext e; rw [pr_ld_q_apply, hq]
  · funext e; rw [pr_ld_k_apply, hk]

/-- The q window's block at point `t`: row `jj` of the block is row `128 j + jj` of batch entry `b` of the
    projected sequence, `(b, ·, j)` being the block index of the output. -/
theorem pr_qblk_apply (c : Dev nD) (t : Fin cfg1.N) (jj : Fin 128) (d : Fin 64) (b : Fin 2) (J : Fin 512)
    (h0 : b.val = win1_0.index t (0 : Fin 3)) (h1 : J.val = win1_0.index t (1 : Fin 3) * 128 + jj.val)
    (h2 : win1_0.index t (2 : Fin 3) = 0) :
    (iblk1 V c 0 t : Vec Ideal S1x128x64 .f32) (ix3 (0 : Fin 1) jj d) = (V c main_v0 : S2x512x64.Idx → EReal) (ix3 b J d) := by
  unfold iblk1
  rw [View.read_apply]
  show V c main_v0 _ = V c main_v0 _
  congr 1
  funext a
  apply Fin.ext
  match a with
  | ⟨0, _⟩ => show win1_0.index t (0 : Fin 3) * 1 + 1 * 0 = b.val; omega
  | ⟨1, _⟩ => show win1_0.index t (1 : Fin 3) * 128 + 1 * jj.val = J.val; omega
  | ⟨2, _⟩ => show win1_0.index t (2 : Fin 3) * 64 + 1 * d.val = d.val; omega

/-- The k window's block at point `t`: row `ii` of the block is row `64 i + ii` of batch entry `b`. -/
theorem pr_kblk_apply (c : Dev nD) (t : Fin cfg1.N) (ii : Fin 64) (d : Fin 64) (b : Fin 2) (I : Fin 512)
    (h0 : b.val = win1_1.index t (0 : Fin 3)) (h1 : I.val = win1_1.index t (1 : Fin 3) * 64 + ii.val)
    (h2 : win1_1.index t (2 : Fin 3) = 0) :
    (iblk1 V c 1 t : Vec Ideal S1x64x64 .f32) (ix3 (0 : Fin 1) ii d) = (V c main_v0 : S2x512x64.Idx → EReal) (ix3 b I d) := by
  unfold iblk1
  rw [View.read_apply]
  show V c main_v0 _ = V c main_v0 _
  congr 1
  funext a
  apply Fin.ext
  match a with
  | ⟨0, _⟩ => show win1_1.index t (0 : Fin 3) * 1 + 1 * 0 = b.val; omega
  | ⟨1, _⟩ => show win1_1.index t (1 : Fin 3) * 64 + 1 * ii.val = I.val; omega
  | ⟨2, _⟩ => show win1_1.index t (2 : Fin 3) * 64 + 1 * d.val = d.val; omega

/-- The output matrix's window holds the whole matrix at every point. -/
theorem pr_wblk_eq (c : Dev nD) (t : Fin cfg1.N) :
    (iblk1 V c 2 t : Vec Ideal S128x64 .f32) = (V c main_arg5 : S128x64.Idx → EReal) := by
  obtain ⟨-, -, -, -, -, -, e0, e1, -⟩ := pr_index_facts t
  funext x
  unfold iblk1
  rw [View.read_apply]
  show V c main_arg5 _ = V c main_arg5 _
  congr 1
  funext a
  apply Fin.ext
  match a with
  | ⟨0, _⟩ => show win1_2.index t (0 : Fin 2) * 128 + 1 * (x 0).val = (x 0).val; omega
  | ⟨1, _⟩ => show win1_2.index t (1 : Fin 2) * 64 + 1 * (x 1).val = (x 1).val; omega

/-- The output bias's window holds the whole bias at every point. -/
theorem pr_bblk_eq (c : Dev nD) (t : Fin cfg1.N) :
    (iblk1 V c 3 t : Vec Ideal S128 .f32) = (V c main_arg6 : S128.Idx → EReal) := by
  obtain ⟨-, -, -, -, -, -, -, -, e0, -⟩ := pr_index_facts t
  funext x
  unfold iblk1
  rw [View.read_apply]
  show V c main_arg6 _ = V c main_arg6 _
  congr 1
  funext a
  apply Fin.ext
  match a with
  | ⟨0, _⟩ => show win1_3.index t (0 : Fin 1) * 128 + 1 * (x 0).val = (x 0).val; omega

/-- What point `t` writes back is block `t` of the pairwise output of the arrays the region was entered with. -/
theorem pr_flushed_eq (c : Dev nD) (t : Fin cfg1.N) :
    (dat1 (F := Ideal) V c).flushed 4 t
      = ((cfg1.win 4).blk t).view.read (Elt Ideal) (Cert.PairSpec.pair (V c main_v0) (V c main_arg5) (V c main_arg6)) := by
  show (cfg1.win 4).cut (grid1.coords t) ((dat1 (F := Ideal) V c).after 4 t) = _
  rw [after1_4]
  unfold out1_4
  rw [View.canon_unit_zero pr_zeros4]
  obtain ⟨a0, a1, a2, b0, b1, b2, -, -, -, l0, l1, l2, l3⟩ := pr_index_facts t
  refine funext fun (y : S1x64x128x128.Idx) => ?_
  obtain ⟨ii, jj, p, rfl⟩ := pr_exists_ix4 y
  have hii : ii.val < 64 := ii.isLt
  have hjj : jj.val < 128 := jj.isLt
  rw [View.read_apply]
  have hemb : ((cfg1.win 4).blk t).view.emb (ix4 (0 : Fin 1) ii jj p)
      = ix4 (⟨win1_4.index t (0 : Fin 4), by omega⟩ : Fin 2) (⟨win1_4.index t (1 : Fin 4) * 64 + ii.val, by omega⟩ : Fin 512)
          (⟨win1_4.index t (2 : Fin 4) * 128 + jj.val, by omega⟩ : Fin 512) p := by
    funext a
    apply Fin.ext
    match a with
    | ⟨0, _⟩ => show win1_4.index t (0 : Fin 4) * 1 + 1 * 0 = win1_4.index t (0 : Fin 4); omega
    | ⟨1, _⟩ => show win1_4.index t (1 : Fin 4) * 64 + 1 * ii.val = win1_4.index t (1 : Fin 4) * 64 + ii.val; omega
    | ⟨2, _⟩ => show win1_4.index t (2 : Fin 4) * 128 + 1 * jj.val = win1_4.index t (2 : Fin 4) * 128 + jj.val; omega
    | ⟨3, _⟩ => show win1_4.index t (3 : Fin 4) * 128 + 1 * p.val = p.val; omega
  show k1_pay1 (F := Ideal) (View.ld (iblk1 V c 0 t) r1_q) (View.ld (iblk1 V c 1 t) r1_k) (View.ld (iblk1 V c 2 t) r1_w)
      (View.ld (iblk1 V c 3 t) r1_b) (ix4 (0 : Fin 1) ii jj p)
    = Cert.PairSpec.pair (V c main_v0) (V c main_arg5) (V c main_arg6) (((cfg1.win 4).blk t).view.emb (ix4 (0 : Fin 1) ii jj p))
  rw [hemb]
  exact pr_stored_apply (iblk1 V c 0 t) (iblk1 V c 1 t) (iblk1 V c 2 t) (iblk1 V c 3 t) (V c main_v0) (V c main_arg5) (V c main_arg6)
    _ _ _ ii jj p
    (fun e => pr_qblk_apply V c t jj (Cert.PairSpec.lo e) _ _ (by show win1_4.index t (0 : Fin 4) = _; omega)
      (by show win1_4.index t (2 : Fin 4) * 128 + jj.val = _; omega) a2)
    (fun e => pr_kblk_apply V c t ii (Cert.PairSpec.hi e) _ _ (by show win1_4.index t (0 : Fin 4) = _; omega)
      (by show win1_4.index t (1 : Fin 4) * 64 + ii.val = _; omega) b2)
    (pr_wblk_eq V c t) (pr_bblk_eq V c t)

/-- An index of the array is in point `t`'s block iff each coordinate is in the block's range on its axis. -/
theorem pr_mem_blk (t : Fin cfg1.N) (i : S2x512x512x128.Idx) :
    i ∈ ((cfg1.win 4).blk t).view.set ↔ ∀ a : Fin 4, win1_4.index t a * S1x64x128x128.size a ≤ (i a).val
      ∧ (i a).val < win1_4.index t a * S1x64x128x128.size a + S1x64x128x128.size a := by
  show i ∈ ((View.whole main_v1).slice (win1_4.rect t)).set ↔ _
  rw [View.set_slice_whole, Rect.mem_set_unit]
  exact Iff.rfl

/-- Every index of the array is in some point's block: `(b, I, J, p)` in that of `(b, I / 64, J / 128)`. -/
theorem pr_covered (i : S2x512x512x128.Idx) :
    ∃ t : Fin cfg1.N, (cfg1.win 4).flush t = true ∧ i ∈ ((cfg1.win 4).blk t).view.set := by
  have hi0 : (i 0).val < 2 := (i 0).isLt
  have hi1 : (i 1).val < 512 := (i 1).isLt
  have hi2 : (i 2).val < 512 := (i 2).isLt
  have hi3 : (i 3).val < 128 := (i 3).isLt
  obtain ⟨t, ht⟩ := pr_index_onto ⟨(i 0).val, by omega⟩ ⟨(i 1).val / 64, by omega⟩ ⟨(i 2).val / 128, by omega⟩
  have q0 : win1_4.index t (0 : Fin 4) = (i 0).val := congrFun ht 0
  have q1 : win1_4.index t (1 : Fin 4) = (i 1).val / 64 := congrFun ht 1
  have q2 : win1_4.index t (2 : Fin 4) = (i 2).val / 128 := congrFun ht 2
  have q3 : win1_4.index t (3 : Fin 4) = 0 := congrFun ht 3
  refine ⟨t, flush1_4 t, ?_⟩
  rw [pr_mem_blk]
  intro a
  match a with
  | ⟨0, _⟩ => show win1_4.index t (0 : Fin 4) * 1 ≤ (i 0).val ∧ (i 0).val < win1_4.index t (0 : Fin 4) * 1 + 1; omega
  | ⟨1, _⟩ => show win1_4.index t (1 : Fin 4) * 64 ≤ (i 1).val ∧ (i 1).val < win1_4.index t (1 : Fin 4) * 64 + 64; omega
  | ⟨2, _⟩ => show win1_4.index t (2 : Fin 4) * 128 ≤ (i 2).val ∧ (i 2).val < win1_4.index t (2 : Fin 4) * 128 + 128; omega
  | ⟨3, _⟩ => show win1_4.index t (3 : Fin 4) * 128 ≤ (i 3).val ∧ (i 3).val < win1_4.index t (3 : Fin 4) * 128 + 128; omega

/-- The result array as region 1 leaves it. -/
theorem arr1_eq (c : Dev nD) :
    ((dat1 (F := Ideal) V c).arrAt 4 cfg1.N : S2x512x512x128.Idx → EReal)
      = Cert.PairSpec.pair (V c main_v0) (V c main_arg5) (V c main_arg6) :=
  (dat1 (F := Ideal) V c).arrAt_eq_of_cover 4 (Cert.PairSpec.pair (V c main_v0) (V c main_arg5) (V c main_arg6))
    (fun t _ => pr_flushed_eq V c t) pr_covered

end Cert.KernelIdeal.HandValue

end
-- ==== Proof.RefValue.lean ====
/-
  The reference's result, read one operation at a time at the exact instance, is `PairSpec.pair` of `PairSpec.qk`
  of its arguments: the row statistics and the projection are sums over the 1024 features; the concatenation of
  the products and the differences along the last axis, contracted with the 64 columns of the output matrix, is the
  sum over the first 32 columns against the products plus the sum over the last 32 against the differences.
-/
import proofs.«170736_j32031866094096_1_alg».proof.Proof.Gen.ReferenceIdeal.Read
import proofs.«170736_j32031866094096_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-! ### Sums over the 64 columns, split in the two halves -/

/-- A sum over 64 columns is the sum over the first 32 plus the sum over the last 32 (extended-real addition is a
    commutative monoid, so nothing about finiteness is asked). -/
theorem sum_halves (f : Fin 64 → EReal) :
    ∑ e : Fin 64, f e = (∑ e : Fin 32, f (Cert.PairSpec.lo e)) + ∑ e : Fin 32, f (Cert.PairSpec.hi e) := by
  refine (Fin.sum_univ_add (a := 32) (b := 32) f).trans ?_
  refine congrArg₂ (· + ·) (Finset.sum_congr rfl fun e _ => congrArg f (Fin.ext rfl))
    (Finset.sum_congr rfl fun e _ => congrArg f (Fin.ext ?_))
  show 32 + e.val = e.val + 32
  omega

/-! ### The row statistics: operations %0 to %23 at a row `(a, b)` of the sequence state -/

/-- The mean stage (%3) at row `(a, b)`: the sum of the row's 1024 entries, from the zero word, over the word 1024. -/
theorem mean_at (x0 : (⟨S2x512x1024, .f32⟩ : BufTy).Contents (Elt Ideal)) (a : Fin 2) (b : Fin 512) (z : Fin 1) :
    val_main_v3 (F := Ideal) x0 (ix3 a b z) = Cert.PairSpec.rowMean (fun d => x0 (ix3 a b d)) := by
  rw [val_main_v3_apply, val_main_v1_apply, val_main_v0_apply, val_main_v2_apply, val_main_cst_0_apply, val_main_cst_apply]
  simp only [Ideal.hostDivf_def, Ideal.ofBits_def, Ideal.ofBits_zero_f32, zero_add]
  unfold Cert.PairSpec.rowMean
  refine congrArg (Ideal.div · Cert.PairSpec.nFeat) (Finset.sum_congr rfl fun k _ => congrArg x0 ?_)
  exact funext fun c => Fin.ext (by match c with | ⟨0, _⟩ => rfl | ⟨1, _⟩ => rfl | ⟨2, _⟩ => rfl)

/-- The centred stage (%5) at `(a, b, d)`: the entry less the row's mean, which %4 spreads along the features. -/
theorem centred_at (x0 : (⟨S2x512x1024, .f32⟩ : BufTy).Contents (Elt Ideal)) (a : Fin 2) (b : Fin 512) (d : Fin 1024) :
    val_main_v5 (F := Ideal) x0 (ix3 a b d) = Cert.PairSpec.rowCentred (fun d => x0 (ix3 a b d)) d := by
  have e4 : idx_main_v4 (ix3 a b d) = ix3 a b (⟨0, Nat.one_pos⟩ : Fin 1) :=
    funext fun c => Fin.ext (by match c with | ⟨0, _⟩ => rfl | ⟨1, _⟩ => rfl | ⟨2, _⟩ => rfl)
  rw [val_main_v5_apply, val_main_v4_apply, e4, mean_at]
  simp only [Ideal.subf_def]
  rfl

/-- %12 repeats %5 (the reference subtracts the spread mean a second time, through %11). -/
theorem centred'_at (x0 : (⟨S2x512x1024, .f32⟩ : BufTy).Contents (Elt Ideal)) (a : Fin 2) (b : Fin 512) (d : Fin 1024) :
    val_main_v12 (F := Ideal) x0 (ix3 a b d) = Cert.PairSpec.rowCentred (fun d => x0 (ix3 a b d)) d := by
  have e11 : idx_main_v11 (ix3 a b d) = ix3 a b (⟨0, Nat.one_pos⟩ : Fin 1) :=
    funext fun c => Fin.ext (by match c with | ⟨0, _⟩ => rfl | ⟨1, _⟩ => rfl | ⟨2, _⟩ => rfl)
  rw [val_main_v12_apply, val_main_v11_apply, e11, mean_at]
  simp only [Ideal.subf_def]
  rfl

/-- The mean-square-deviation stage (%10) at row `(a, b)`: the sum of the squared centred entries over the word 1024. -/
theorem var_at (x0 : (⟨S2x512x1024, .f32⟩ : BufTy).Contents (Elt Ideal)) (a : Fin 2) (b : Fin 512) (z : Fin 1) :
    val_main_v10 (F := Ideal) x0 (ix3 a b z) = Cert.PairSpec.rowVar (fun d => x0 (ix3 a b d)) := by
  rw [val_main_v10_apply, val_main_v8_apply, val_main_v7_apply, val_main_v9_apply, val_main_cst_2_apply, val_main_cst_1_apply]
  simp only [Ideal.hostDivf_def, Ideal.ofBits_def, Ideal.ofBits_zero_f32, zero_add]
  unfold Cert.PairSpec.rowVar
  refine congrArg (Ideal.div · Cert.PairSpec.nFeat) (Finset.sum_congr rfl fun k _ => ?_)
  have e7 : idx_main_v7 (idx_main_v8 (ix3 a b z)) k = ix3 a b k :=
    funext fun c => Fin.ext (by match c with | ⟨0, _⟩ => rfl | ⟨1, _⟩ => rfl | ⟨2, _⟩ => rfl)
  rw [e7, val_main_v6_apply, centred_at]
  simp only [Ideal.mulf_def]

/-- The normalised stage (%23) at `(a, b, d)`: centred, times the reciprocal square root of the deviation plus ε,
    times γ's entry, plus β's entry. -/
theorem normed_at (x0 : (⟨S2x512x1024, .f32⟩ : BufTy).Contents (Elt Ideal)) (x1 x2 : (⟨S1024, .f32⟩ : BufTy).Contents (Elt Ideal))
    (a : Fin 2) (b : Fin 512) (d : Fin 1024) :
    val_main_v23 (F := Ideal) x0 x1 x2 (ix3 a b d) = Cert.PairSpec.rowNormed (fun d => x0 (ix3 a b d)) x1 x2 d := by
  have e16 : idx_main_v16 (ix3 a b d) = ix3 a b (⟨0, Nat.one_pos⟩ : Fin 1) :=
    funext fun c => Fin.ext (by match c with | ⟨0, _⟩ => rfl | ⟨1, _⟩ => rfl | ⟨2, _⟩ => rfl)
  have e18 : idx_main_v18 (idx_main_v19 (ix3 a b d)) = ix1 d :=
    funext fun c => Fin.ext (by match c with | ⟨0, _⟩ => rfl)
  have e21 : idx_main_v21 (idx_main_v22 (ix3 a b d)) = ix1 d :=
    funext fun c => Fin.ext (by match c with | ⟨0, _⟩ => rfl)
  rw [val_main_v23_apply, val_main_v20_apply, val_main_v17_apply, centred'_at, val_main_v16_apply, e16,
    val_main_v15_apply, val_main_v14_apply, var_at, val_main_v13_apply, val_main_cst_3_apply,
    val_main_v19_apply, val_main_v18_apply, e18, val_main_v22_apply, val_main_v21_apply, e21]
  simp only [Ideal.addf_def, Ideal.mulf_def, Ideal.hostUnary_rsqrt_def, Ideal.ofBits_def]
  rfl

/-! ### The projection: operation %27 -/

/-- The reference's projected sequence (its operation %27) is `PairSpec.qk`. -/
theorem ref_qk (x0 : (⟨S2x512x1024, .f32⟩ : BufTy).Contents (Elt Ideal)) (x1 x2 : (⟨S1024, .f32⟩ : BufTy).Contents (Elt Ideal))
    (x3 : (⟨S64x1024, .f32⟩ : BufTy).Contents (Elt Ideal)) (x4 : (⟨S64, .f32⟩ : BufTy).Contents (Elt Ideal)) :
    val_main_v27 (F := Ideal) x0 x1 x2 x3 x4 = Cert.PairSpec.qk x0 x1 x2 x3 x4 := by
  funext i
  obtain ⟨a, b, e, rfl⟩ : ∃ (a : Fin 2) (b : Fin 512) (e : Fin 64), i = ix3 a b e := ⟨i 0, i 1, i 2, eq_ix3 i⟩
  show val_main_v27 (F := Ideal) x0 x1 x2 x3 x4 (ix3 a b e)
    = Cert.PairSpec.rowProj (fun d => x0 (ix3 a b d)) x1 x2 x3 x4 e
  have e25 : idx_main_v25 (idx_main_v26 (ix3 a b e)) = ix1 e :=
    funext fun c => Fin.ext (by match c with | ⟨0, _⟩ => rfl)
  rw [val_main_v27_apply, val_main_v24_apply, val_main_v26_apply, val_main_v25_apply, e25]
  simp only [Ideal.addf_def]
  unfold Cert.PairSpec.rowProj
  refine congrArg (· + x4 (ix1 e)) (Finset.sum_congr rfl fun k _ => ?_)
  have el : lidx_main_v24 (ix3 a b e) k = ix3 a b k :=
    funext fun c => Fin.ext (by match c with | ⟨0, _⟩ => rfl | ⟨1, _⟩ => rfl | ⟨2, _⟩ => rfl)
  have er : ridx_main_v24 (ix3 a b e) k = ix2 e k :=
    funext fun c => Fin.ext (by match c with | ⟨0, _⟩ => rfl | ⟨1, _⟩ => rfl)
  rw [el, er, normed_at]

/-! ### The pair stage: operations %28 to %44 at an index `(b, i, j, ·)` -/

/-- The q half spread over the pairs (%32, and %37 which repeats it) at `(b, i, j, e)`: column `e` of the projected row `(b, j)`. -/
theorem q_at (x0 : (⟨S2x512x1024, .f32⟩ : BufTy).Contents (Elt Ideal)) (x1 x2 : (⟨S1024, .f32⟩ : BufTy).Contents (Elt Ideal))
    (x3 : (⟨S64x1024, .f32⟩ : BufTy).Contents (Elt Ideal)) (x4 : (⟨S64, .f32⟩ : BufTy).Contents (Elt Ideal))
    (b : Fin 2) (i j : Fin 512) (e : Fin 32) :
    val_main_v32 (F := Ideal) x0 x1 x2 x3 x4 (ix4 b i j e) = val_main_v27 (F := Ideal) x0 x1 x2 x3 x4 (ix3 b j (Cert.PairSpec.lo e)) := by
  have ei : idx_main_v28 (idx_main_v30 (idx_main_v32 (ix4 b i j e))) = ix3 b j (Cert.PairSpec.lo e) :=
    funext fun c => Fin.ext (by match c with | ⟨0, _⟩ => rfl | ⟨1, _⟩ => rfl | ⟨2, _⟩ => rfl)
  rw [val_main_v32_apply, val_main_v30_apply, val_main_v28_apply, ei]

/-- %37 repeats %32: column `e` of the projected row `(b, j)`, for the differences. -/
theorem q'_at (x0 : (⟨S2x512x1024, .f32⟩ : BufTy).Contents (Elt Ideal)) (x1 x2 : (⟨S1024, .f32⟩ : BufTy).Contents (Elt Ideal))
    (x3 : (⟨S64x1024, .f32⟩ : BufTy).Contents (Elt Ideal)) (x4 : (⟨S64, .f32⟩ : BufTy).Contents (Elt Ideal))
    (b : Fin 2) (i j : Fin 512) (e : Fin 32) :
    val_main_v37 (F := Ideal) x0 x1 x2 x3 x4 (ix4 b i j e) = val_main_v27 (F := Ideal) x0 x1 x2 x3 x4 (ix3 b j (Cert.PairSpec.lo e)) := by
  have ei : idx_main_v28 (idx_main_v35 (idx_main_v37 (ix4 b i j e))) = ix3 b j (Cert.PairSpec.lo e) :=
    funext fun c => Fin.ext (by match c with | ⟨0, _⟩ => rfl | ⟨1, _⟩ => rfl | ⟨2, _⟩ => rfl)
  rw [val_main_v37_apply, val_main_v35_apply, val_main_v28_apply, ei]

/-- The k half spread over the pairs (%33, and %38 which repeats it) at `(b, i, j, e)`: column `32 + e` of the projected row `(b, i)`. -/
theorem k_at (x0 : (⟨S2x512x1024, .f32⟩ : BufTy).Contents (Elt Ideal)) (x1 x2 : (⟨S1024, .f32⟩ : BufTy).Contents (Elt Ideal))
    (x3 : (⟨S64x1024, .f32⟩ : BufTy).Contents (Elt Ideal)) (x4 : (⟨S64, .f32⟩ : BufTy).Contents (Elt Ideal))
    (b : Fin 2) (i j : Fin 512) (e : Fin 32) :
    val_main_v33 (F := Ideal) x0 x1 x2 x3 x4 (ix4 b i j e) = val_main_v27 (F := Ideal) x0 x1 x2 x3 x4 (ix3 b i (Cert.PairSpec.hi e)) := by
  have ei : idx_main_v29 (idx_main_v31 (idx_main_v33 (ix4 b i j e))) = ix3 b i (Cert.PairSpec.hi e) :=
    funext fun c => Fin.ext (by match c with | ⟨0, _⟩ => rfl | ⟨1, _⟩ => rfl | ⟨2, _⟩ => exact Nat.add_comm 32 e.val)
  rw [val_main_v33_apply, val_main_v31_apply, val_main_v29_apply, ei]

/-- %38 repeats %33: column `32 + e` of the projected row `(b, i)`, for the differences. -/
theorem k'_at (x0 : (⟨S2x512x1024, .f32⟩ : BufTy).Contents (Elt Ideal)) (x1 x2 : (⟨S1024, .f32⟩ : BufTy).Contents (Elt Ideal))
    (x3 : (⟨S64x1024, .f32⟩ : BufTy).Contents (Elt Ideal)) (x4 : (⟨S64, .f32⟩ : BufTy).Contents (Elt Ideal))
    (b : Fin 2) (i j : Fin 512) (e : Fin 32) :
    val_main_v38 (F := Ideal) x0 x1 x2 x3 x4 (ix4 b i j e) = val_main_v27 (F := Ideal) x0 x1 x2 x3 x4 (ix3 b i (Cert.PairSpec.hi e)) := by
  have ei : idx_main_v29 (idx_main_v36 (idx_main_v38 (ix4 b i j e))) = ix3 b i (Cert.PairSpec.hi e) :=
    funext fun c => Fin.ext (by match c with | ⟨0, _⟩ => rfl | ⟨1, _⟩ => rfl | ⟨2, _⟩ => exact Nat.add_comm 32 e.val)
  rw [val_main_v38_apply, val_main_v36_apply, val_main_v29_apply, ei]

/-- The concatenation (%40) at a column of the first half reads the products (%34) at that column. -/
theorem cat_lo (x0 : (⟨S2x512x1024, .f32⟩ : BufTy).Contents (Elt Ideal)) (x1 x2 : (⟨S1024, .f32⟩ : BufTy).Contents (Elt Ideal))
    (x3 : (⟨S64x1024, .f32⟩ : BufTy).Contents (Elt Ideal)) (x4 : (⟨S64, .f32⟩ : BufTy).Contents (Elt Ideal))
    (b : Fin 2) (i j : Fin 512) (e : Fin 32) :
    val_main_v40 (F := Ideal) x0 x1 x2 x3 x4 (ix4 b i j (Cert.PairSpec.lo e)) = val_main_v34 (F := Ideal) x0 x1 x2 x3 x4 (ix4 b i j e) := by
  unfold val_main_v40
  generalize val_main_v34 (F := Ideal) x0 x1 x2 x3 x4 = y₁
  generalize val_main_v39 (F := Ideal) x0 x1 x2 x3 x4 = y₂
  exact concatenate_pair_apply_left _ y₁ y₂ concatenates_S2x512x512x32_S2x512x512x32_S2x512x512x64_d3
    (ix4 b i j (Cert.PairSpec.lo e)) rfl (ix4 b i j e)
    (fun c => match c with | ⟨0, _⟩ => rfl | ⟨1, _⟩ => rfl | ⟨2, _⟩ => rfl | ⟨3, _⟩ => rfl)

/-- The concatenation (%40) at a column of the second half reads the differences (%39) at that column less 32. -/
theorem cat_hi (x0 : (⟨S2x512x1024, .f32⟩ : BufTy).Contents (Elt Ideal)) (x1 x2 : (⟨S1024, .f32⟩ : BufTy).Contents (Elt Ideal))
    (x3 : (⟨S64x1024, .f32⟩ : BufTy).Contents (Elt Ideal)) (x4 : (⟨S64, .f32⟩ : BufTy).Contents (Elt Ideal))
    (b : Fin 2) (i j : Fin 512) (e : Fin 32) :
    val_main_v40 (F := Ideal) x0 x1 x2 x3 x4 (ix4 b i j (Cert.PairSpec.hi e)) = val_main_v39 (F := Ideal) x0 x1 x2 x3 x4 (ix4 b i j e) := by
  unfold val_main_v40
  generalize val_main_v34 (F := Ideal) x0 x1 x2 x3 x4 = y₁
  generalize val_main_v39 (F := Ideal) x0 x1 x2 x3 x4 = y₂
  exact concatenate_pair_apply_right _ y₁ y₂ concatenates_S2x512x512x32_S2x512x512x32_S2x512x512x64_d3
    (ix4 b i j (Cert.PairSpec.hi e)) rfl rfl (ix4 b i j e)
    (fun c => match c with
      | ⟨0, _⟩ => fun _ => rfl | ⟨1, _⟩ => fun _ => rfl | ⟨2, _⟩ => fun _ => rfl
      | ⟨3, _⟩ => fun h => absurd (Fin.ext rfl) h)
    rfl

/-- The reference's result (its operation %44) is `PairSpec.pair` of `PairSpec.qk`. -/
theorem ref_eq (x0 : (⟨S2x512x1024, .f32⟩ : BufTy).Contents (Elt Ideal)) (x1 x2 : (⟨S1024, .f32⟩ : BufTy).Contents (Elt Ideal))
    (x3 : (⟨S64x1024, .f32⟩ : BufTy).Contents (Elt Ideal)) (x4 : (⟨S64, .f32⟩ : BufTy).Contents (Elt Ideal))
    (x5 : (⟨S128x64, .f32⟩ : BufTy).Contents (Elt Ideal)) (x6 : (⟨S128, .f32⟩ : BufTy).Contents (Elt Ideal)) :
    val_main_v44 (F := Ideal) x0 x1 x2 x3 x4 x5 x6 = Cert.PairSpec.pair (Cert.PairSpec.qk x0 x1 x2 x3 x4) x5 x6 := by
  funext t
  obtain ⟨b, i, j, p, rfl⟩ : ∃ (b : Fin 2) (i j : Fin 512) (p : Fin 128), t = ix4 b i j p :=
    ⟨t 0, t 1, t 2, t 3, eq_ix4 t⟩
  show val_main_v44 (F := Ideal) x0 x1 x2 x3 x4 x5 x6 (ix4 b i j p)
    = Cert.PairSpec.pairAt (fun e => Cert.PairSpec.qk x0 x1 x2 x3 x4 (ix3 b j (Cert.PairSpec.lo e)))
        (fun e => Cert.PairSpec.qk x0 x1 x2 x3 x4 (ix3 b i (Cert.PairSpec.hi e))) x5 x6 p
  have e42 : idx_main_v42 (idx_main_v43 (ix4 b i j p)) = ix1 p :=
    funext fun c => Fin.ext (by match c with | ⟨0, _⟩ => rfl)
  have el : ∀ k : Fin 64, lidx_main_v41 (ix4 b i j p) k = ix4 b i j k := fun k =>
    funext fun c => Fin.ext (by match c with | ⟨0, _⟩ => rfl | ⟨1, _⟩ => rfl | ⟨2, _⟩ => rfl | ⟨3, _⟩ => rfl)
  have er : ∀ k : Fin 64, ridx_main_v41 (ix4 b i j p) k = ix2 p k := fun k =>
    funext fun c => Fin.ext (by match c with | ⟨0, _⟩ => rfl | ⟨1, _⟩ => rfl)
  rw [val_main_v44_apply, val_main_v41_apply, val_main_v43_apply, val_main_v42_apply, e42]
  simp only [Ideal.addf_def, el, er]
  rw [sum_halves]
  unfold Cert.PairSpec.pairAt
  refine congrArg (· + x6 (ix1 p)) (congrArg₂ (· + ·) (Finset.sum_congr rfl fun e _ => ?_) (Finset.sum_congr rfl fun e _ => ?_))
  · rw [cat_lo, val_main_v34_apply, q_at, k_at, ref_qk]
    simp only [Ideal.mulf_def]
  · rw [cat_hi, val_main_v39_apply, q'_at, k'_at, ref_qk]
    simp only [Ideal.subf_def]

end Cert.ReferenceIdeal.RefValue

end
-- ==== Proof.lean ====
/-
  The certificate's claim. Both printed kernel programs are the same two pallas_calls — a LayerNorm over 1024
  features followed by a projection to 64 columns (region 0), then, for every pair of positions, the products and
  the differences of the projected rows' two halves contracted with the two halves of an output matrix (region 1).
  The frames of the two kernel programs come from one run of @main over the two regions (region 1 reads the
  projected sequence through two windows, each holding half of that array's share). At the exact instance the
  result array is region 1's folded write-backs, which is `PairSpec.pair` of region 0's folded write-backs, which
  is `PairSpec.qk` of the arguments; the reference's result, read one operation at a time, is the same function:
  its one 64-term contraction of the concatenated products and differences is the kernel's two 32-term
  contractions added, and its lane sums and matrix product are the same sums. No finiteness is used.
-/
import proofs.«170736_j32031866094096_1_alg».proof.Defs
import proofs.«170736_j32031866094096_1_alg».proof.Proof.Gen.Kernel
import proofs.«170736_j32031866094096_1_alg».proof.Proof.Gen.KernelIdeal
import proofs.«170736_j32031866094096_1_alg».proof.Proof.Gen.ReferenceIdeal
import proofs.«170736_j32031866094096_1_alg».proof.Proof.Gen.ReferenceIdeal.Run
import proofs.«170736_j32031866094096_1_alg».proof.Proof.Gen.ReferenceIdeal.Read
import proofs.«170736_j32031866094096_1_alg».proof.Proof.Gen.Pre_finite_inputs
import proofs.«170736_j32031866094096_1_alg».proof.Proof.K.Run
import proofs.«170736_j32031866094096_1_alg».proof.Proof.KI.Run
import proofs.«170736_j32031866094096_1_alg».proof.Proof.KI.Value0
import proofs.«170736_j32031866094096_1_alg».proof.Proof.KI.Value1
import proofs.«170736_j32031866094096_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k [Cert.Kernel.Facts] [Cert.Pre_finite_inputs.Facts] : Cert.frame_Kernel :=
  fun m ρ _ => Cert.Kernel.Hand.frame m ρ

/-- So does the idealized kernel program. -/
theorem frame_ki [Cert.KernelIdeal.Facts] [Cert.Pre_finite_inputs.Facts] : Cert.frame_KernelIdeal :=
  fun m ρ _ => Cert.KernelIdeal.Hand.frame m ρ

/-- The reference is a host program: its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

section Value

open Cert.KernelIdeal Cert.KernelIdeal.Hand

variable [Cert.KernelIdeal.Facts]

/-- The kernel program's result array at the exact instance, as the specification's function of the arguments. -/
theorem kernel_result (m : (ℓ : Loc nD τ sig) → Buf (Elt Ideal) ℓ) (ρ : Dev nD → PrngReg) (c : Dev nD) :
    ((dat1 (F := Ideal) (V1 m ρ) c).arrAt 4 cfg1.N : S2x512x512x128.Idx → EReal)
      = Cert.PairSpec.pair
          (Cert.PairSpec.qk (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4)))
          (m ((c.tc : Thread nD τ).loc main_arg5)) (m ((c.tc : Thread nD τ).loc main_arg6)) := by
  rw [Cert.KernelIdeal.HandValue.arr1_eq (V1 m ρ) c]
  have h0 : (V1 m ρ c main_v0 : S2x512x64.Idx → EReal)
      = Cert.PairSpec.qk (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) :=
    (V1_main_v0 m ρ c).trans (Cert.KernelIdeal.HandValue.arr0_eq (V0 m ρ) c)
  have h5 : V1 m ρ c main_arg5 = m ((c.tc : Thread nD τ).loc main_arg5) := V1_arg m ρ c main_arg5 (by decide)
  have h6 : V1 m ρ c main_arg6 = m ((c.tc : Thread nD τ).loc main_arg6) := V1_arg m ρ c main_arg6 (by decide)
  rw [h0, h5, h6]

end Value

/-- At the exact instance both programs end with the specification's function of arguments that agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.PairSpec.pair
      (Cert.PairSpec.qk (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono (fun r h c => ⟨(h c).1.trans (kernel_result m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v44_eq, Cert.ReferenceIdeal.RefValue.ref_eq,
      (hagree c).1, (hagree c).2.1, (hagree c).2.2.1, (hagree c).2.2.2.1, (hagree c).2.2.2.2.1, (hagree c).2.2.2.2.2.1,
      (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
